-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S128x4096 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S512x4096 : Shape := ⟨2, ![512, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S4x2048x4096 .f32) (main_arg1 : IVec S512x4096 32) (main_arg2 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x16 .f32 := Host.absf main_arg2
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  main_v8
-- ==== Kernel.lean ====
abbrev S4x2048x4096 : Shape := ⟨3, ![4, 2048, 4096]⟩
abbrev S512x4096 : Shape := ⟨2, ![512, 4096]⟩
abbrev S4096x16 : Shape := ⟨2, ![4096, 16]⟩
abbrev S8192x4096 : Shape := ⟨2, ![8192, 4096]⟩
abbrev S16x4096 : Shape := ⟨2, ![16, 4096]⟩
abbrev S4096x4096 : Shape := ⟨2, ![4096, 4096]⟩
abbrev S128x4096 : Shape := ⟨2, ![128, 4096]⟩
abbrev S1x8 : Shape := ⟨2, ![1, 8]⟩
abbrev S8 : Shape := ⟨1, ![8]⟩
abbrev S1x8x1 : Shape := ⟨3, ![1, 8, 1]⟩
abbrev S16x1x4096 : Shape := ⟨3, ![16, 1, 4096]⟩
abbrev S16x8x4096 : Shape := ⟨3, ![16, 8, 4096]⟩
abbrev S1x4096 : Shape := ⟨2, ![1, 4096]⟩
abbrev S4096 : Shape := ⟨1, ![4096]⟩
abbrev S1x1x4096 : Shape := ⟨3, ![1, 1, 4096]⟩
abbrev S1024x1024 : Shape := ⟨2, ![1024, 1024]⟩
abbrev S1024x4096 : Shape := ⟨2, ![1024, 4096]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S512x4096, .i32⟩
  | .hbm, ⟨2, _⟩ => ⟨S4096x16, .f32⟩
  | .hbm, ⟨3, _⟩ => ⟨S8192x4096, .f32⟩
  | .hbm, ⟨4, _⟩ => ⟨S16x4096, .f32⟩
  | .hbm, ⟨5, _⟩ => ⟨S4096x4096, .bf16⟩
  | .hbm, ⟨6, _⟩ => ⟨S4096x4096, .bf16⟩
  | .hbm, ⟨7, _⟩ => ⟨S8192x4096, .f32⟩
  | .hbm, ⟨8, _⟩ => ⟨S4x2048x4096, .f32⟩
  | .local _ .vmem, ⟨0, _⟩ => ⟨S16x4096, .i32⟩
  | .local _ .vmem, ⟨1, _⟩ => ⟨S16x4096, .i32⟩
  | .local _ .vmem, ⟨2, _⟩ => ⟨S16x4096, .f32⟩
  | .local _ .vmem, ⟨3, _⟩ => ⟨S128x4096, .bf16⟩
  | .local _ .vmem, ⟨4, _⟩ => ⟨S128x4096, .bf16⟩
  | .local _ .vmem, ⟨5, _⟩ => ⟨S128x4096, .bf16⟩
  | .local _ .vmem, ⟨6, _⟩ => ⟨S128x4096, .bf16⟩
  | .local _ .vmem, ⟨7, _⟩ => ⟨S1024x1024, .f32⟩
  | .local _ .vmem, ⟨8, _⟩ => ⟨S1024x1024, .f32⟩
  | .local _ .vmem, ⟨9, _⟩ => ⟨S1024x4096, .bf16⟩
  | .local _ .vmem, ⟨10, _⟩ => ⟨S1024x4096, .bf16⟩
  | .local _ .vmem, ⟨11, _⟩ => ⟨S1024x4096, .bf16⟩
  | .local _ .vmem, ⟨12, _⟩ => ⟨S1024x4096, .bf16⟩
  | .local _ .vmem, ⟨13, _⟩ => ⟨S1024x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1024x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

class Facts₀ : Prop where
  shapeCasts_S4x2048x4096_S8192x4096 : S4x2048x4096.ShapeCasts S8192x4096
  transposes_S4096x16_S16x4096_1_0 : S4096x16.Transposes [1, 0] S16x4096
  inb_S16x4096_S16x4096_0_0 : ∀ a, (![0, 0] : Fin 2 → Nat) a + S16x4096.size a ≤ S16x4096.size a
  h_S16x4096 : 0 < S16x4096.numel
  iota_S1x8_d1_w32 : S1x8.Iotas .tc 32 [1]
  shapeCasts_S1x8_S8 : S1x8.ShapeCasts S8
  shapeCasts_S8_S1x8x1 : S8.ShapeCasts S1x8x1
  shapeCasts_S16x4096_S16x1x4096 : S16x4096.ShapeCasts S16x1x4096
  broadcasts_S16x1x4096_S16x8x4096 : S16x1x4096.Broadcasts S16x8x4096
  broadcasts_S1x8x1_S16x8x4096 : S1x8x1.Broadcasts S16x8x4096
  shapeCasts_S16x4096_S16x4096 : S16x4096.ShapeCasts S16x4096
  slices_S16x4096_o0_0_S1x4096 : S16x4096.Slices ![0, 0] S1x4096
  shapeCasts_S1x4096_S4096 : S1x4096.ShapeCasts S4096
  shapeCasts_S4096_S1x1x4096 : S4096.ShapeCasts S1x1x4096
  slices_S16x4096_o1_0_S1x4096 : S16x4096.Slices ![1, 0] S1x4096
  slices_S16x4096_o2_0_S1x4096 : S16x4096.Slices ![2, 0] S1x4096
  slices_S16x4096_o3_0_S1x4096 : S16x4096.Slices ![3, 0] S1x4096
  slices_S16x4096_o4_0_S1x4096 : S16x4096.Slices ![4, 0] S1x4096
  slices_S16x4096_o5_0_S1x4096 : S16x4096.Slices ![5, 0] S1x4096
  slices_S16x4096_o6_0_S1x4096 : S16x4096.Slices ![6, 0] S1x4096
  slices_S16x4096_o7_0_S1x4096 : S16x4096.Slices ![7, 0] S1x4096
  slices_S16x4096_o8_0_S1x4096 : S16x4096.Slices ![8, 0] S1x4096
  slices_S16x4096_o9_0_S1x4096 : S16x4096.Slices ![9, 0] S1x4096
  slices_S16x4096_o10_0_S1x4096 : S16x4096.Slices ![10, 0] S1x4096
  slices_S16x4096_o11_0_S1x4096 : S16x4096.Slices ![11, 0] S1x4096
  slices_S16x4096_o12_0_S1x4096 : S16x4096.Slices ![12, 0] S1x4096
  slices_S16x4096_o13_0_S1x4096 : S16x4096.Slices ![13, 0] S1x4096
  slices_S16x4096_o14_0_S1x4096 : S16x4096.Slices ![14, 0] S1x4096
  slices_S16x4096_o15_0_S1x4096 : S16x4096.Slices ![15, 0] S1x4096
  shapeCasts_S1x1x4096_S1x1x4096 : S1x1x4096.ShapeCasts S1x1x4096
  broadcasts_S1x1x4096_S16x8x4096 : S1x1x4096.Broadcasts S16x8x4096
  shapeCasts_S16x8x4096_S128x4096 : S16x8x4096.ShapeCasts S128x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  packedbf16_S128x4096_S128x4096_0_0 : (Rect.unit (s := S128x4096) ![0, 0] S128x4096.size inb_S128x4096_S128x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x4096_S1024x4096 : S1024x4096.ShapeCasts S1024x4096
  shapeCasts_S8192x4096_S4x2048x4096 : S8192x4096.ShapeCasts S4x2048x4096
  dot_S1024x1024_S1024x4096_S1024x4096_1_0_0_1_n_n_wf : DotDims.WF S1024x1024 S1024x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S512x4096.size a
  hwx0_0 : ∀ i : grid0.Coords, EltTy.bits .i32 = 32 ∨ (Rect.block (s := S512x4096) S16x4096.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .bf16 = 32 ∨ (Rect.block (s := S4096x4096) S128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .bf16 = 32 ∨ (Rect.block (s := S4096x4096) S128x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S4096x4096.size a
  hwx1_2 : ∀ i : grid1.Coords, EltTy.bits .bf16 = 32 ∨ (Rect.block (s := S4096x4096) S1024x4096.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S8192x4096.size a
  hwx1_3 : ∀ i : grid1.Coords, EltTy.bits .f32 = 32 ∨ (Rect.block (s := S8192x4096) S1024x4096.size (cc1_transform_3 i) (hinb1_3 i)).WholeWords (EltTy.packing .f32)

variable [Facts₀]

def dot_S1024x1024_S1024x4096_S1024x4096_1_0_0_1_n_n : DotDims S1024x1024 S1024x4096 S1024x4096 where
  lhsContracting := [1]
  rhsContracting := [0]
  lhsNonContracting := [0]
  rhsNonContracting := [1]
  lhsBatch := []
  rhsBatch := []
  wf := dot_S1024x1024_S1024x4096_S1024x4096_1_0_0_1_n_n_wf

abbrev win0_0 : Pipeline.Window sig grid0 :=
  Pipeline.Window.ofSpec (Memref.whole main_arg1) S16x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S128x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S1024x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x4096.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S512x4096 : Shape := ⟨2, ![512, 4096]⟩
abbrev S4096x16 : Shape := ⟨2, ![4096, 16]⟩
abbrev S4096x512 : Shape := ⟨2, ![4096, 512]⟩
abbrev S8 : Shape := ⟨1, ![8]⟩
abbrev S_ : Shape := ⟨0, ![]⟩
abbrev S4096x512x1 : Shape := ⟨3, ![4096, 512, 1]⟩
abbrev S1x1x8 : Shape := ⟨3, ![1, 1, 8]⟩
abbrev S4096x512x8 : Shape := ⟨3, ![4096, 512, 8]⟩
abbrev S4096x4096 : Shape := ⟨2, ![4096, 4096]⟩
abbrev S4096x4096x1 : Shape := ⟨3, ![4096, 4096, 1]⟩
abbrev S1 : Shape := ⟨1, ![1]⟩
abbrev S1x1x1 : Shape := ⟨3, ![1, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S512x4096, .i32⟩
  | .hbm, ⟨2, _⟩ => ⟨S4096x16, .f32⟩
  | .hbm, ⟨3, _⟩ => ⟨S4096x512, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S4096x512x1, .i32⟩
  | .hbm, ⟨9, _⟩ => ⟨S1x1x8, .i32⟩
  | .hbm, ⟨10, _⟩ => ⟨S4096x512x8, .i32⟩
  | .hbm, ⟨11, _⟩ => ⟨S4096x512x8, .i32⟩
  | .hbm, ⟨12, _⟩ => ⟨S4096x512x8, .i32⟩
  | .hbm, ⟨13, _⟩ => ⟨S_, .i32⟩
  | .hbm, ⟨14, _⟩ => ⟨S4096x512x8, .i32⟩
  | .hbm, ⟨15, _⟩ => ⟨S4096x512x8, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i32⟩
  | .hbm, ⟨24, _⟩ => ⟨S4096x4096x1, .i32⟩
  | .hbm, ⟨25, _⟩ => ⟨S1, .i32⟩
  | .hbm, ⟨26, _⟩ => ⟨S_, .i32⟩
  | .hbm, ⟨27, _⟩ => ⟨S4096x4096x1, .i32⟩
  | .hbm, ⟨28, _⟩ => ⟨S4096x4096x1, .i1⟩
  | .hbm, ⟨29, _⟩ => ⟨S1x1x1, .i32⟩
  | .hbm, ⟨30, _⟩ => ⟨S4096x4096x1, .i32⟩
  | .hbm, ⟨31, _⟩ => ⟨S4096x4096x1, .i1⟩
  | .hbm, ⟨32, _⟩ => ⟨S4096x4096x1, .i1⟩
  | .hbm, ⟨33, _⟩ => ⟨S_, .i1⟩
  | .hbm, ⟨34, _⟩ => ⟨S4096x4096, .i1⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v12 : Ref sig .tc := ⟨.hbm, 38, rfl⟩
abbrev main_v13 : Ref sig .tc := ⟨.hbm, 39, rfl⟩

abbrev nD : Nat := 1
abbrev τ : Topo := Topo.v7x

variable {F : FTy → Type} [FloatOps F]

class Facts₀ : Prop where
  transposes_S512x4096_S4096x512_1_0 : S512x4096.Transposes [1, 0] S4096x512
  bcast_S_S8 : S_.BroadcastsInDim S8 (![] : Fin 0 → Fin S8.rank)
  bcast_S4096x512_S4096x512x1_0_1 : S4096x512.BroadcastsInDim S4096x512x1 (![0, 1] : Fin 2 → Fin S4096x512x1.rank)
  bcast_S8_S1x1x8_2 : S8.BroadcastsInDim S1x1x8 (![2] : Fin 1 → Fin S1x1x8.rank)
  bcast_S4096x512x1_S4096x512x8_0_1_2 : S4096x512x1.BroadcastsInDim S4096x512x8 (![0, 1, 2] : Fin 3 → Fin S4096x512x8.rank)
  bcast_S1x1x8_S4096x512x8_0_1_2 : S1x1x8.BroadcastsInDim S4096x512x8 (![0, 1, 2] : Fin 3 → Fin S4096x512x8.rank)
  bcast_S_S4096x512x8 : S_.BroadcastsInDim S4096x512x8 (![] : Fin 0 → Fin S4096x512x8.rank)
  shapeCasts_S4096x512x8_S4096x4096 : S4096x512x8.ShapeCasts S4096x4096
  bcast_S_S4096x4096 : S_.BroadcastsInDim S4096x4096 (![] : Fin 0 → Fin S4096x4096.rank)
  shapeCasts_S4096x4096_S4096x4096x1 : S4096x4096.ShapeCasts S4096x4096x1
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  gather_S4096x16_S4096x4096x1_S4096x4096_n_1_0_0_1_2_11_wf : GatherDims.WF S4096x16 S4096x4096x1 S4096x4096 [] [1] [0] [1] [0] 2 ![1, 1]
  dot_S4x2048x4096_S4096x4096_S4x2048x4096_2_1_01_0_n_n_wf : DotDims.WF S4x2048x4096 S4096x4096 S4x2048x4096 [2] [1] [0, 1] [0] [] []

variable [Facts₀]

def gather_S4096x16_S4096x4096x1_S4096x4096_n_1_0_0_1_2_11 : GatherDims S4096x16 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x16_S4096x4096x1_S4096x4096_n_1_0_0_1_2_11_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Host.lean ====
/-
  What the buffers hold at each boundary of @main, by name. @main reshapes `input` [4, 2048, 4096] to `x` [8192, 4096] and
  transposes `lut` [4096, 16] to [16, 4096]; region 0 then writes the two weight arrays from the packed words and the
  transposed table; region 1 writes the product array from `x` and the two weight arrays; the last operation reshapes the
  product [8192, 4096] back to [4, 2048, 4096]. Row `r` of `x` is `input[r / 2048, r mod 2048, ·]`, and the result at
  `(b, s, n)` is the product array at `(2048 b + s, n)`.
-/
import proofs.«401050_j87978110091557_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.HostVals

open Cert.KernelIdeal Cert.KernelIdeal.Gen

variable {F : FTy → Type} [FloatOps F]
variable (m : (ℓ : Loc nD τ sig) → Buf (Elt F) ℓ) (ρ : Dev nD → PrngReg)

/-! ## Region 0's entry: the first two host operations applied to the arguments -/

/-- The packed words reach region 0 as launched: neither host operation writes them. -/
theorem entry0_qw (c : Dev nD) : V1 m ρ c main_arg1 = m ((c.tc : Thread nD τ).loc main_arg1) := by
  show StableHlo.after hostOps0 (W0 m ρ c) (Proc.devRef .tc main_arg1) = _
  after_results

/-- `x` is the reshape of `input`. -/
theorem entry0_x (c : Dev nD) :
    V1 m ρ c main_v0 = shapeCast S8192x4096 (m ((c.tc : Thread nD τ).loc main_arg0)) shapeCasts_S4x2048x4096_S8192x4096 := by
  show StableHlo.after hostOps0 (W0 m ρ c) (Proc.devRef .tc main_v0) = _
  after_results; rfl

/-- The table region 0 reads is the transpose of `lut`. -/
theorem entry0_lutT (c : Dev nD) :
    V1 m ρ c main_v1 = transpose S16x4096 [1, 0] (m ((c.tc : Thread nD τ).loc main_arg2)) transposes_S4096x16_S16x4096_1_0 := by
  show StableHlo.after hostOps0 (W0 m ρ c) (Proc.devRef .tc main_v1) = _
  after_results

/-! ## Region 1's entry: region 0's two results, and `x` untouched -/

/-- Region 0 does not write `x`. -/
theorem entry1_x (c : Dev nD) : V2 m ρ c main_v0 = V1 m ρ c main_v0 := W2_of_ne m ρ c main_v0 (by decide)

/-- The high weight array is what region 0's write-backs leave in its window 2. -/
theorem entry1_whi (c : Dev nD) : V2 m ρ c main_v2_0 = (dat0 (V1 m ρ) c).arrAt 2 cfg0.N := W2_arr m ρ c 2

/-- The low weight array is what region 0's write-backs leave in its window 3. -/
theorem entry1_wlo (c : Dev nD) : V2 m ρ c main_v2_1 = (dat0 (V1 m ρ) c).arrAt 3 cfg0.N := W2_arr m ρ c 3

/-! ## The return: region 1's result, reshaped -/

/-- The product array is what region 1's write-backs leave in its window 3. -/
theorem exit1_out (c : Dev nD) : W3 m ρ c (Proc.devRef .tc main_v3) = (dat1 (V2 m ρ) c).arrAt 3 cfg1.N := W3_arr m ρ c 3

/-- The result buffer is the reshape of the product array. -/
theorem result_eq (c : Dev nD) :
    W4 m ρ c (Proc.devRef .tc main_v4)
      = shapeCast S4x2048x4096 (W3 m ρ c (Proc.devRef .tc main_v3)) shapeCasts_S8192x4096_S4x2048x4096 := by
  show StableHlo.after hostOps2 (W3 m ρ c) (Proc.devRef .tc main_v4) = _
  after_results; rfl

/-! ## The two reshapes and the transpose read at an index -/

/-- Row `2048 b + s` of the flattened array. -/
abbrev flatRow (b : Fin 4) (s : Fin 2048) : Fin 8192 := ⟨2048 * b.val + s.val, by have := b.isLt; have := s.isLt; omega⟩

/-- The reshape [4, 2048, 4096] → [8192, 4096] at `(2048 b + s, k)` reads `(b, s, k)`. -/
theorem flatten_apply {α : Type} (x : S4x2048x4096.Idx → α) (b : Fin 4) (s : Fin 2048) (k : Fin 4096) :
    shapeCast S8192x4096 x shapeCasts_S4x2048x4096_S8192x4096 (ix2 (flatRow b s) k) = x (ix3 b s k) := by
  refine shapeCast_apply x shapeCasts_S4x2048x4096_S8192x4096 (ix2 (flatRow b s) k) (ix3 b s k) ?_
  rw [Shape.rowMajor_val_two, Shape.rowMajor_val_three]
  have hb := b.isLt; have hs := s.isLt; have hk := k.isLt
  show (b.val * 2048 + s.val) * 4096 + k.val = (2048 * b.val + s.val) * 4096 + k.val
  omega

/-- The reshape [8192, 4096] → [4, 2048, 4096] at `(b, s, n)` reads `(2048 b + s, n)`. -/
theorem unflatten_apply {α : Type} (y : S8192x4096.Idx → α) (b : Fin 4) (s : Fin 2048) (n : Fin 4096) :
    shapeCast S4x2048x4096 y shapeCasts_S8192x4096_S4x2048x4096 (ix3 b s n) = y (ix2 (flatRow b s) n) := by
  refine shapeCast_apply y shapeCasts_S8192x4096_S4x2048x4096 (ix3 b s n) (ix2 (flatRow b s) n) ?_
  rw [Shape.rowMajor_val_two, Shape.rowMajor_val_three]
  have hb := b.isLt; have hs := s.isLt; have hn := n.isLt
  show (2048 * b.val + s.val) * 4096 + n.val = (b.val * 2048 + s.val) * 4096 + n.val
  omega

/-- The transpose [4096, 16] → [16, 4096] at `(code, n)` reads `(n, code)`. -/
theorem lutT_apply {α : Type} (lut : S4096x16.Idx → α) (code : Fin 16) (n : Fin 4096) :
    transpose S16x4096 [1, 0] lut transposes_S4096x16_S16x4096_1_0 (ix2 code n) = lut (ix2 n code) :=
  transpose_apply [1, 0] lut transposes_S4096x16_S16x4096_1_0 (ix2 code n) (ix2 n code) (fun b => match b with
    | ⟨0, _⟩ => rfl
    | ⟨1, _⟩ => rfl)

end Cert.KernelIdeal.HostVals

end
-- ==== Proof.Spec.lean ====
/-
  The mathematics both programs compute, stated once over literal shapes and the extended reals.

  A 32-bit word of `qweight` packs eight 4-bit codes; code `s` of a word `q` is the field `(q >>> 4s) &&& 15`
  (`nibWord`, `nib`). The dequantized weight is `W[k, n] = lut[n, code (k mod 8) of qweight[k / 8, n]]` (`wAt`; over the
  transposed table, `wOfT`), and the result is the product `out[b, s, n] = ∑ k, input[b, s, k] * W[k, n]` (`gemmAt`).
  The kernel forms the same product in four contraction tiles of 1024 and, per tile, as three partial products over a
  high part `W` and a low part `W - W` of the weights and a high part `x` and a low part `x - x` of the input
  (`tileAt`, `mmAt`): on finite entries the low parts vanish and the tiles add up to the whole sum (`mmAt_eq_sum`).
-/
import Idealize.ShloMosaic.PureOps.Ideal
import Idealize.ShloMosaic.PureOps.Ideal.Laws
import Idealize.ShloMosaic.Lib.ValueIdx
import Mathlib.Algebra.BigOperators.Fin
import Mathlib.Data.EReal.Operations

noncomputable section

open scoped BigOperators

namespace Cert.LutGemm

open Idealize.ShloMosaic Idealize.ShloMosaic.ValueIdx

/-! ## The 4-bit codes of a packed word -/

/-- Field `s` (bits `4s … 4s+3`) of a 32-bit word, as a word. -/
def nibWord (q : BitVec 32) (s : Fin 8) : BitVec 32 := (q >>> (4 * s.val)) &&& 15#32

/-- A 4-bit field is below 16. -/
theorem nibWord_lt (q : BitVec 32) (s : Fin 8) : (nibWord q s).toNat < 16 := by
  unfold nibWord
  rw [BitVec.toNat_and]
  exact lt_of_le_of_lt Nat.and_le_right (by decide)

/-- The same field as a code, an index into the 16 table entries. -/
def nib (q : BitVec 32) (s : Fin 8) : Fin 16 := ⟨(nibWord q s).toNat, nibWord_lt q s⟩

/-- The shift amount `s * 4`, read as a number, is `4 s`: nothing wraps around, since `s < 8`. -/
theorem amount_toNat (s : Fin 8) : (IntOp.muli (BitVec.ofNat 32 s.val) 4#32).toNat = 4 * s.val := by
  have hs := s.isLt
  unfold IntOp.muli
  rw [BitVec.toNat_mul, BitVec.toNat_ofNat, BitVec.toNat_ofNat]
  omega

/-- Bit `i` of the mask `15 = 2 ^ 4 - 1` is set exactly when `i < 4`. -/
theorem getLsbD_fifteen (i : Nat) : (15#32 : BitVec 32).getLsbD i = decide (i < 4) := by
  have h : (15#32 : BitVec 32) = BitVec.ofNat 32 (2 ^ 4 - 1) := rfl
  rw [h, BitVec.getLsbD_ofNat, Nat.testBit_two_pow_sub_one]
  by_cases h4 : i < 4
  · have : i < 32 := by omega
    simp [h4, this]
  · simp [h4]

/-- The vector unit's logical shift by `4s` then the mask 15 is the field (the shift amount `s * 4` is below 32). -/
theorem shrui_andi_eq_nibWord (q : BitVec 32) (s : Fin 8) :
    IntOp.andi (IntOp.shrui .vector q (IntOp.muli (BitVec.ofNat 32 s.val) 4#32)) 15#32 = nibWord q s := by
  have hs := s.isLt
  have ha := amount_toNat s
  -- the amount is below the width, so the shift is the plain logical shift by `4 s`
  unfold IntOp.shrui
  rw [if_pos (by rw [ha]; omega), BitVec.ushiftRight_eq', ha]
  rfl

/-- The host's ARITHMETIC shift by `4s` then the mask 15 is the same field: the sign bits an arithmetic shift by at most
    28 brings in sit above bit 3 of the shifted word, and the mask drops them. -/
theorem shrsi_andi_eq_nibWord (q : BitVec 32) (s : Fin 8) :
    IntOp.andi (IntOp.shrsi .host q (IntOp.muli (BitVec.ofNat 32 s.val) 4#32)) 15#32 = nibWord q s := by
  have hs := s.isLt
  have ha := amount_toNat s
  -- the amount is below the width, so the shift is the arithmetic shift by `4 s`
  unfold IntOp.shrsi
  rw [if_pos (by rw [ha]; omega), BitVec.sshiftRight_eq', ha]
  unfold IntOp.andi nibWord
  -- bit by bit: above bit 3 the mask clears both sides; at a bit `i < 4` both shifts read bit `4 s + i < 32` of `q`
  apply BitVec.eq_of_getLsbD_eq
  intro i hi
  rw [BitVec.getLsbD_and, BitVec.getLsbD_and, getLsbD_fifteen, BitVec.getLsbD_sshiftRight,
    BitVec.getLsbD_ushiftRight]
  by_cases h4 : i < 4
  · have h1 : 4 * s.val + i < 32 := by omega
    have h2 : ¬ (32 ≤ i) := by omega
    simp [h4, h1, h2]
  · simp [h4]

/-! ## The dequantized weights and the product -/

/-- Row `k / 8` of the packed words holds contraction index `k`. -/
abbrev wordRow (k : Fin 4096) : Fin 512 := ⟨k.val / 8, by have := k.isLt; omega⟩
/-- and field `k mod 8` of that word is its code. -/
abbrev wordField (k : Fin 4096) : Fin 8 := ⟨k.val % 8, Nat.mod_lt _ (by decide)⟩

/-- `W[k, n]` over the table as given, `lut : [4096, 16]`. -/
def wAt (qw : (⟨2, ![512, 4096]⟩ : Shape).Idx → BitVec 32) (lut : (⟨2, ![4096, 16]⟩ : Shape).Idx → EReal)
    (k n : Fin 4096) : EReal :=
  lut (ix2 n (nib (qw (ix2 (wordRow k) n)) (wordField k)))

/-- `W[k, n]` over the TRANSPOSED table `lutT : [16, 4096]`, as the dequantizing region reads it. -/
def wOfT (qw : (⟨2, ![512, 4096]⟩ : Shape).Idx → BitVec 32) (lutT : (⟨2, ![16, 4096]⟩ : Shape).Idx → EReal)
    (k n : Fin 4096) : EReal :=
  lutT (ix2 (nib (qw (ix2 (wordRow k) n)) (wordField k)) n)

/-- Over the transpose of a table, `wOfT` is `wAt` of the table. -/
theorem wOfT_transpose (qw : (⟨2, ![512, 4096]⟩ : Shape).Idx → BitVec 32) (lut : (⟨2, ![4096, 16]⟩ : Shape).Idx → EReal)
    (lutT : (⟨2, ![16, 4096]⟩ : Shape).Idx → EReal) (h : ∀ (c : Fin 16) (n : Fin 4096), lutT (ix2 c n) = lut (ix2 n c))
    (k n : Fin 4096) : wOfT qw lutT k n = wAt qw lut k n := h _ _

/-- The whole product at `(b, s, n)`. -/
def gemmAt (inp : (⟨3, ![4, 2048, 4096]⟩ : Shape).Idx → EReal) (qw : (⟨2, ![512, 4096]⟩ : Shape).Idx → BitVec 32)
    (lut : (⟨2, ![4096, 16]⟩ : Shape).Idx → EReal) (b : Fin 4) (s : Fin 2048) (n : Fin 4096) : EReal :=
  ∑ k : Fin 4096, inp (ix3 b s k) * wAt qw lut k n

/-! ## The kernel's tiled, three-pass form of the product -/

/-- Contraction index `1024 * kt + kk` of tile `kt`. -/
abbrev kAt (kt : Fin 4) (kk : Fin 1024) : Fin 4096 := ⟨1024 * kt.val + kk.val, by have := kt.isLt; have := kk.isLt; omega⟩

/-- One contraction tile's three partial products at `(r, n)`: `x·whi + x·wlo + (x - x)·whi`. -/
def tileAt (x : (⟨2, ![8192, 4096]⟩ : Shape).Idx → EReal) (whi wlo : (⟨2, ![4096, 4096]⟩ : Shape).Idx → EReal)
    (kt : Fin 4) (r : Fin 8192) (n : Fin 4096) : EReal :=
  (∑ kk : Fin 1024, x (ix2 r (kAt kt kk)) * whi (ix2 (kAt kt kk) n))
    + (∑ kk : Fin 1024, x (ix2 r (kAt kt kk)) * wlo (ix2 (kAt kt kk) n))
    + (∑ kk : Fin 1024, (x (ix2 r (kAt kt kk)) - x (ix2 r (kAt kt kk))) * whi (ix2 (kAt kt kk) n))

/-- The four tiles added up, in any order (addition of extended reals is commutative and associative). -/
def mmAt (x : (⟨2, ![8192, 4096]⟩ : Shape).Idx → EReal) (whi wlo : (⟨2, ![4096, 4096]⟩ : Shape).Idx → EReal)
    (r : Fin 8192) (n : Fin 4096) : EReal :=
  ∑ kt : Fin 4, tileAt x whi wlo kt r n

/-- The pairs `(kt, kk)` number the 4096 contraction indices, `(kt, kk) ↦ 1024 kt + kk`. -/
def tileEquiv : Fin 4 × Fin 1024 ≃ Fin 4096 :=
  (finProdFinEquiv (m := 4) (n := 1024)).trans (finCongr (by norm_num))

theorem tileEquiv_apply (kt : Fin 4) (kk : Fin 1024) : tileEquiv (kt, kk) = kAt kt kk := by
  apply Fin.ext
  simp [tileEquiv, finProdFinEquiv, kAt]
  omega

/-- Summing tile by tile over `1024 kt + kk` is summing over all 4096 contraction indices. -/
theorem sum_kAt (f : Fin 4096 → EReal) :
    ∑ kt : Fin 4, ∑ kk : Fin 1024, f (kAt kt kk) = ∑ k : Fin 4096, f k := by
  rw [← Equiv.sum_comp tileEquiv f, Fintype.sum_prod_type]
  refine Finset.sum_congr rfl fun kt _ => Finset.sum_congr rfl fun kk _ => ?_
  rw [tileEquiv_apply]

/-- A finite extended real minus itself is zero (at `±∞` the difference would not be). -/
theorem sub_self_of_real {a : EReal} (h : ∃ b : ℝ, a = (b : EReal)) : a - a = 0 := by
  obtain ⟨b, rfl⟩ := h
  rw [← EReal.coe_sub, sub_self, EReal.coe_zero]

/-- On FINITE inputs and weights the low parts `x - x` and `w - w` are zero, their products vanish, and the four
    tiles of 1024 add up to the one sum over all 4096 contraction indices. -/
theorem mmAt_eq_sum (x : (⟨2, ![8192, 4096]⟩ : Shape).Idx → EReal) (w : Fin 4096 → Fin 4096 → EReal)
    (whi wlo : (⟨2, ![4096, 4096]⟩ : Shape).Idx → EReal)
    (hx : ∀ i, ∃ a : ℝ, x i = (a : EReal)) (hw : ∀ k n, ∃ a : ℝ, w k n = (a : EReal))
    (hhi : ∀ k n, whi (ix2 k n) = w k n) (hlo : ∀ k n, wlo (ix2 k n) = w k n - w k n)
    (r : Fin 8192) (n : Fin 4096) :
    mmAt x whi wlo r n = ∑ k : Fin 4096, x (ix2 r k) * w k n := by
  have hx0 : ∀ i, x i - x i = 0 := fun i => sub_self_of_real (hx i)
  have hw0 : ∀ k n, w k n - w k n = 0 := fun k n => sub_self_of_real (hw k n)
  unfold mmAt tileAt
  -- the second and third partial products are sums of zeros; what is left is the first, tile by tile
  simp only [hhi, hlo, hx0, hw0, mul_zero, zero_mul, Finset.sum_const_zero, add_zero]
  exact sum_kAt (fun k => x (ix2 r k) * w k n)

end Cert.LutGemm

end
-- ==== Proof.Dequant.lean ====
/-
  The dequantizing region's value. Its grid has 32 points; point `t` reads rows `16t … 16t+15` of the packed words and
  the whole transposed table and writes rows `128t … 128t+127` of the two weight arrays: the high part
  `W[k, n] = lutT[code (k mod 8) of qweight[k / 8, n], n]` and the low part `W[k, n] - W[k, n]`.
-/
import proofs.«401050_j87978110091557_3_alg».proof.Proof.Gen.KernelIdeal.Frame
import proofs.«401050_j87978110091557_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Dequant

open Cert.KernelIdeal Cert.KernelIdeal.Gen Cert.LutGemm

-- the buffers' contents when the region is entered
variable (V : (c : Dev nD) → (b : Ref sig .tc) → Buf (Elt Ideal) ((c : Thread nD τ).loc b))

/-- The packed words as the region finds them. -/
abbrev qwArr (c : Dev nD) : Vec Ideal S512x4096 .i32 := V c main_arg1
/-- The transposed table as the region finds it. -/
abbrev lutTArr (c : Dev nD) : Vec Ideal S16x4096 .f32 := V c main_v1

/-- The weight the region computes at `(k, n)`. -/
abbrev wAtV (c : Dev nD) (k n : Fin 4096) : EReal := wOfT (qwArr V c) (lutTArr V c) k n

/-! ## A four-level tree of selects on the bits of a 4-bit word picks the entry the word names -/

/-- Bit `j` of a word, as the one-bit condition the body forms: shift right by `j`, mask 1, compare with 0. -/
abbrev bitOf (y j : BitVec 32) : BitVec 1 :=
  IntOp.cmpi .ne (IntOp.andi (IntOp.shrsi .vector y j) 1#32) 0#32

/-- A word below 16 is one of the sixteen literals. -/
theorem word_of_lt16 (y : BitVec 32) (hy : y.toNat < 16) : ∃ k : Fin 16, y = BitVec.ofNat 32 k.val :=
  ⟨⟨y.toNat, hy⟩, by simp⟩

/-- Selecting on bit 3, then bit 2, then bit 1, then bit 0 of a word `y < 16` among sixteen values laid out in
    binary order returns value number `y`: checked on each of the sixteen words. -/
theorem tree16 {α : Type} (a : Fin 16 → α) (y : BitVec 32) (hy : y.toNat < 16) :
    Scalar.select (bitOf y 3#32)
      (Scalar.select (bitOf y 2#32)
        (Scalar.select (bitOf y 1#32) (Scalar.select (bitOf y 0#32) (a 15) (a 14)) (Scalar.select (bitOf y 0#32) (a 13) (a 12)))
        (Scalar.select (bitOf y 1#32) (Scalar.select (bitOf y 0#32) (a 11) (a 10)) (Scalar.select (bitOf y 0#32) (a 9) (a 8))))
      (Scalar.select (bitOf y 2#32)
        (Scalar.select (bitOf y 1#32) (Scalar.select (bitOf y 0#32) (a 7) (a 6)) (Scalar.select (bitOf y 0#32) (a 5) (a 4)))
        (Scalar.select (bitOf y 1#32) (Scalar.select (bitOf y 0#32) (a 3) (a 2)) (Scalar.select (bitOf y 0#32) (a 1) (a 0))))
      = a ⟨y.toNat, hy⟩ := by
  obtain ⟨k, rfl⟩ := word_of_lt16 y hy
  fin_cases k <;> rfl

/-- A select between equal conditions and equal operands. -/
theorem sel_congr {α : Type} {c c' : BitVec 1} {a a' b b' : α} (hc : c = c') (ha : a = a') (hb : b = b') :
    Scalar.select c a b = Scalar.select c' a' b' := by subst hc ha hb; rfl

/-! ## The body's values at a coordinate `(r, s, n)` of the `[16, 8, 4096]` intermediate -/

section Layout
variable {F : FTy → Type} [FloatOps F]

/-- The nibble word at `(r, s, n)`: the packed word `(r, n)` shifted right by `4 s` and masked with 15. -/
theorem nibble_at (x0 : Vec F S16x4096 .i32) (r : Fin 16) (s : Fin 8) (n : Fin 4096) :
    k0_pay4 x0 (ix3 r s n) = nibWord (x0 (ix2 r n)) s := by
  have hA : ∀ (h1 : S16x4096.ShapeCasts S16x1x4096) (h2 : S16x1x4096.Broadcasts S16x8x4096),
      broadcastTo S16x8x4096 (shapeCast S16x1x4096 (x0 : S16x4096.Idx → BitVec 32) h1) h2 (ix3 r s n) = x0 (ix2 r n) := by
    intro h1 h2
    refine (broadcastTo_apply _ h2 (ix3 r s n) (ix3 r (0 : Fin 1) n) (fun a => ?_)).trans ?_
    · match a with
      | ⟨0, _⟩ => rfl
      | ⟨1, _⟩ => rfl
      | ⟨2, _⟩ => rfl
    · refine shapeCast_apply _ h1 _ (ix2 r n) ?_
      rw [Shape.rowMajor_val_three, Shape.rowMajor_val_two]
      show r.val * 4096 + n.val = (r.val * 1 + 0) * 4096 + n.val
      omega
  have hB : ∀ (h0 : S1x8.Iotas .tc 32 [1]) (h1 : S1x8.ShapeCasts S8) (h2 : S8.ShapeCasts S1x8x1) (h3 : S1x8x1.Broadcasts S16x8x4096),
      broadcastTo S16x8x4096 (shapeCast S1x8x1 (muli (shapeCast S8 (iota .tc S1x8 32 [1] h0) h1) (broadcast S8 4#32)) h2) h3 (ix3 r s n)
        = IntOp.muli (BitVec.ofNat 32 s.val) 4#32 := by
    intro h0 h1 h2 h3
    refine (broadcastTo_apply _ h3 (ix3 r s n) (ix3 (0 : Fin 1) s (0 : Fin 1)) (fun a => ?_)).trans ?_
    · match a with
      | ⟨0, _⟩ => rfl
      | ⟨1, _⟩ => rfl
      | ⟨2, _⟩ => rfl
    · refine (shapeCast_apply _ h2 _ (ix1 s) ?_).trans ?_
      · rw [Shape.rowMajor_val_three, Shape.rowMajor_val_one]
        show s.val = (0 * 8 + s.val) * 1 + 0
        omega
      · show IntOp.muli (shapeCast S8 (iota .tc S1x8 32 [1] h0) h1 (ix1 s)) 4#32 = _
        refine congrArg (fun w => IntOp.muli w 4#32) ?_
        refine (shapeCast_apply _ h1 (ix1 s) (ix2 (0 : Fin 1) s) ?_).trans ?_
        · rw [Shape.rowMajor_val_two, Shape.rowMajor_val_one]
          show 0 * 8 + s.val = s.val
          omega
        · exact iota_single_apply .tc S1x8 32 1 h0 (ix2 (0 : Fin 1) s)
  unfold k0_pay4
  show IntOp.andi (IntOp.shrui .vector _ _) 15#32 = _
  rw [hA, hB]
  exact shrui_andi_eq_nibWord _ s

end Layout

section Leaves
variable {α : Type}

/-- One table row, sliced out, flattened, given two unit axes and broadcast along `r` and `s`, reads at
    `(r, s, n)` the table's entry `(c, n)`. -/
theorem row_at (x : S16x4096.Idx → α) (off : Fin 2 → Nat) (c : Fin 16) (hc : off 0 = c.val) (h0 : off 1 = 0)
    (h1 : S16x4096.Slices off S1x4096) (h2 : S1x4096.ShapeCasts S4096) (h3 : S4096.ShapeCasts S1x1x4096)
    (h4 : S1x1x4096.ShapeCasts S1x1x4096) (h5 : S1x1x4096.Broadcasts S16x8x4096) (r : Fin 16) (s : Fin 8) (n : Fin 4096) :
    broadcastTo S16x8x4096 (shapeCast S1x1x4096 (shapeCast S1x1x4096 (shapeCast S4096 (extractStridedSlice S1x4096 off x h1) h2) h3) h4) h5
      (ix3 r s n) = x (ix2 c n) := by
  refine (broadcastTo_apply _ h5 (ix3 r s n) (ix3 (0 : Fin 1) (0 : Fin 1) n) (fun a => ?_)).trans ?_
  · match a with
    | ⟨0, _⟩ => rfl
    | ⟨1, _⟩ => rfl
    | ⟨2, _⟩ => rfl
  rw [shapeCast_self]
  refine (shapeCast_apply _ h3 _ (ix1 n) ?_).trans ?_
  · rw [Shape.rowMajor_val_three, Shape.rowMajor_val_one]
    show n.val = (0 * 1 + 0) * 4096 + n.val
    omega
  refine (shapeCast_apply _ h2 _ (ix2 (0 : Fin 1) n) ?_).trans ?_
  · rw [Shape.rowMajor_val_two, Shape.rowMajor_val_one]
    show 0 * 4096 + n.val = n.val
    omega
  refine extractStridedSlice_apply off x h1 _ (ix2 c n) (fun a => ?_)
  match a with
  | ⟨0, _⟩ => show c.val = off 0 + 0; omega
  | ⟨1, _⟩ => show n.val = off 1 + n.val; omega

end Leaves

section Tree
variable {F : FTy → Type} [FloatOps F]

/-- The table block after its same-shape cast is the table block. -/
theorem pay5_eq (x1 : Vec F S16x4096 .f32) : k0_pay5 x1 = x1 := by
  unfold k0_pay5
  exact shapeCast_self _ _

/-- THE TREE AT AN INDEX. Row `8 r + s` of the body's `[128, 4096]` value is coordinate `(r, s)` of the
    `[16, 8, 4096]` tree of selects, whose value at `(r, s, n)` is the table's entry `(code, n)` for the code in field
    `s` of the packed word `(r, n)`. -/
theorem pay1_at (x0 : Vec F S16x4096 .i32) (x1 : Vec F S16x4096 .f32) (r : Fin 16) (s : Fin 8) (n : Fin 4096)
    (ρ : Fin 128) (hρ : ρ.val = 8 * r.val + s.val) :
    k0_pay1 (k0_pay4 x0) (k0_pay20 (k0_pay4 x0) (k0_pay6 x1) (k0_pay7 x1)) (k0_pay21 (k0_pay4 x0) (k0_pay8 x1) (k0_pay9 x1))
        (k0_pay22 (k0_pay4 x0) (k0_pay10 x1) (k0_pay11 x1)) (k0_pay23 (k0_pay4 x0) (k0_pay12 x1) (k0_pay13 x1))
        (k0_pay24 (k0_pay4 x0) (k0_pay14 x1) (k0_pay15 x1)) (k0_pay25 (k0_pay4 x0) (k0_pay16 x1) (k0_pay17 x1))
        (k0_pay26 (k0_pay4 x0) (k0_pay5 x1) (k0_pay18 x1)) (k0_pay27 (k0_pay4 x0) (k0_pay5 x1)) 1#32 (ix2 ρ n)
      = x1 (ix2 (nib (x0 (ix2 r n)) s) n) := by
  have hy : k0_pay4 x0 (ix3 r s n) = nibWord (x0 (ix2 r n)) s := nibble_at x0 r s n
  have hb : ∀ j : BitVec 32,
      IntOp.cmpi .ne (IntOp.andi (IntOp.shrsi .vector (k0_pay4 x0 (ix3 r s n)) j) 1#32) 0#32
        = bitOf (nibWord (x0 (ix2 r n)) s) j := fun j => by rw [hy]
  unfold k0_pay1
  refine (shapeCast_apply _ _ (ix2 ρ n) (ix3 r s n) ?_).trans ?_
  · rw [Shape.rowMajor_val_three, Shape.rowMajor_val_two]
    show (r.val * 8 + s.val) * 4096 + n.val = ρ.val * 4096 + n.val
    omega
  refine Eq.trans ?_ ((tree16 (fun c => k0_pay5 x1 (ix2 c n)) (nibWord (x0 (ix2 r n)) s) (nibWord_lt _ _)).trans
    (congrFun (pay5_eq x1) _))
  unfold k0_pay20 k0_pay21 k0_pay22 k0_pay23 k0_pay24 k0_pay25 k0_pay26 k0_pay27 k0_pay19
    k0_pay6 k0_pay7 k0_pay8 k0_pay9 k0_pay10 k0_pay11 k0_pay12 k0_pay13 k0_pay14 k0_pay15 k0_pay16 k0_pay17 k0_pay18
  exact sel_congr (hb 3#32)
    (sel_congr (hb 2#32)
      (sel_congr (hb 1#32)
        (sel_congr (hb 0#32) (row_at _ _ 15 rfl rfl _ _ _ _ _ r s n) (row_at _ _ 14 rfl rfl _ _ _ _ _ r s n))
        (sel_congr (hb 0#32) (row_at _ _ 13 rfl rfl _ _ _ _ _ r s n) (row_at _ _ 12 rfl rfl _ _ _ _ _ r s n)))
      (sel_congr (hb 1#32)
        (sel_congr (hb 0#32) (row_at _ _ 11 rfl rfl _ _ _ _ _ r s n) (row_at _ _ 10 rfl rfl _ _ _ _ _ r s n))
        (sel_congr (hb 0#32) (row_at _ _ 9 rfl rfl _ _ _ _ _ r s n) (row_at _ _ 8 rfl rfl _ _ _ _ _ r s n))))
    (sel_congr (hb 2#32)
      (sel_congr (hb 1#32)
        (sel_congr (hb 0#32) (row_at _ _ 7 rfl rfl _ _ _ _ _ r s n) (row_at _ _ 6 rfl rfl _ _ _ _ _ r s n))
        (sel_congr (hb 0#32) (row_at _ _ 5 rfl rfl _ _ _ _ _ r s n) (row_at _ _ 4 rfl rfl _ _ _ _ _ r s n)))
      (sel_congr (hb 1#32)
        (sel_congr (hb 0#32) (row_at _ _ 3 rfl rfl _ _ _ _ _ r s n) (row_at _ _ 2 rfl rfl _ _ _ _ _ r s n))
        (sel_congr (hb 0#32) (row_at _ _ 1 rfl rfl _ _ _ _ _ r s n) (row_at _ _ 0 rfl rfl _ _ _ _ _ r s n))))

end Tree

/-! ## What the body leaves in the two output buffers, at an index -/

/-- The offsets `(0, 0)` are the constant-zero function. -/
theorem hz : (![0, 0] : Fin 2 → Nat) = fun _ => 0 := funext fun a => by fin_cases a <;> rfl

/-- The high buffer at block row `8 r + s`: the table entry the code names (the narrowing is the identity on extended
    reals). -/
theorem out2_at (x0 : Vec Ideal S16x4096 .i32) (x1 : Vec Ideal S16x4096 .f32) (r : Fin 16) (s : Fin 8) (n : Fin 4096)
    (ρ : Fin 128) (hρ : ρ.val = 8 * r.val + s.val) :
    out0_2 x0 x1 (ix2 ρ n) = x1 (ix2 (nib (x0 (ix2 r n)) s) n) := by
  unfold out0_2
  rw [View.canon_unit_zero hz]
  simp only [View.ld_unit_zero (S := S16x4096) hz]
  unfold k0_pay2
  exact pay1_at x0 x1 r s n ρ hρ

/-- The low buffer at block row `8 r + s`: that entry minus itself, as extended reals. -/
theorem out3_at (x0 : Vec Ideal S16x4096 .i32) (x1 : Vec Ideal S16x4096 .f32) (r : Fin 16) (s : Fin 8) (n : Fin 4096)
    (ρ : Fin 128) (hρ : ρ.val = 8 * r.val + s.val) :
    out0_3 x0 x1 (ix2 ρ n) = x1 (ix2 (nib (x0 (ix2 r n)) s) n) - x1 (ix2 (nib (x0 (ix2 r n)) s) n) := by
  unfold out0_3
  rw [View.canon_unit_zero hz]
  simp only [View.ld_unit_zero (S := S16x4096) hz]
  unfold k0_pay3
  have e := pay1_at x0 x1 r s n ρ hρ
  exact congrArg₂ (fun a b : EReal => a - b) e e

/-! ## From the blocks to the arrays -/

/-- The windows' index maps over the grid: the packed words' and both outputs' blocks move with the point along the
    rows, the table's block never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point `t`'s block of packed words is rows `16 t … 16 t + 15` of the array. -/
theorem qblk_at (c : Dev nD) (t : Fin cfg0.N) (r : Fin 16) (n : Fin 4096) (k : Fin 512) (hk : k.val = 16 * t.val + r.val) :
    (iblk0 V c 0 t : Vec Ideal S16x4096 .i32) (ix2 r n) = qwArr V c (ix2 k n) := by
  obtain ⟨e0, e1, -⟩ := idx_facts t
  unfold iblk0
  rw [View.read_apply]
  show V c main_arg1 _ = V c main_arg1 _
  congr 1
  funext a
  apply Fin.ext
  match a with
  | ⟨0, _⟩ => show win0_0.index t (0 : Fin 2) * 16 + 1 * r.val = k.val; omega
  | ⟨1, _⟩ => show win0_0.index t (1 : Fin 2) * 4096 + 1 * n.val = n.val; omega

/-- Every point's block of the table is the whole table. -/
theorem lblk_at (c : Dev nD) (t : Fin cfg0.N) (k : Fin 16) (n : Fin 4096) :
    (iblk0 V c 1 t : Vec Ideal S16x4096 .f32) (ix2 k n) = lutTArr V c (ix2 k n) := by
  obtain ⟨-, -, e2, e3, -⟩ := idx_facts t
  unfold iblk0
  rw [View.read_apply]
  show V c main_v1 _ = V c main_v1 _
  congr 1
  funext a
  apply Fin.ext
  match a with
  | ⟨0, _⟩ => show win0_1.index t (0 : Fin 2) * 16 + 1 * k.val = k.val; omega
  | ⟨1, _⟩ => show win0_1.index t (1 : Fin 2) * 4096 + 1 * n.val = n.val; omega

/-- THE BLOCK'S WEIGHT. At point `t`, block row `ρ` is contraction index `k = 128 t + ρ`: its packed word sits in
    word row `k / 8 = 16 t + ρ / 8` and its code is field `k mod 8 = ρ mod 8`. -/
theorem blk_weight (c : Dev nD) (t : Fin cfg0.N) (ρ : Fin 128) (n : Fin 4096) (k : Fin 4096) (hk : k.val = 128 * t.val + ρ.val) :
    (iblk0 V c 1 t : Vec Ideal S16x4096 .f32)
        (ix2 (nib ((iblk0 V c 0 t : Vec Ideal S16x4096 .i32) (ix2 ⟨ρ.val / 8, by have := ρ.isLt; omega⟩ n)) ⟨ρ.val % 8, Nat.mod_lt _ (by decide)⟩) n)
      = wAtV V c k n := by
  have ht : t.val < 32 := t.isLt
  rw [lblk_at, qblk_at V c t ⟨ρ.val / 8, by have := ρ.isLt; omega⟩ n (wordRow k) (by show k.val / 8 = 16 * t.val + ρ.val / 8; omega)]
  have hf : (⟨ρ.val % 8, Nat.mod_lt _ (by decide)⟩ : Fin 8) = wordField k := Fin.ext (by show ρ.val % 8 = k.val % 8; omega)
  rw [hf]
  rfl

/-- The high weight array the region computes. -/
abbrev Whi (c : Dev nD) : Vec Ideal S4096x4096 .bf16 :=
  fun i => wAtV V c ⟨(i 0).val, idx2_lt0 i⟩ ⟨(i 1).val, idx2_lt1 i⟩
/-- The low weight array the region computes. -/
abbrev Wlo (c : Dev nD) : Vec Ideal S4096x4096 .bf16 :=
  fun i => wAtV V c ⟨(i 0).val, idx2_lt0 i⟩ ⟨(i 1).val, idx2_lt1 i⟩ - wAtV V c ⟨(i 0).val, idx2_lt0 i⟩ ⟨(i 1).val, idx2_lt1 i⟩

/-- WHAT POINT `t` WRITES BACK to the high array is block `t` of `Whi`. -/
theorem flushed_hi (c : Dev nD) (t : Fin cfg0.N) :
    (dat0 (F := Ideal) V c).flushed 2 t = ((cfg0.win 2).blk t).view.read (Elt Ideal) (Whi V c) := by
  show (cfg0.win 2).cut (grid0.coords t) ((dat0 V c).after 2 t) = _
  rw [after0_2]
  funext j
  have hj0 : (j 0).val < 128 := (j 0).isLt
  have hj1 : (j 1).val < 4096 := (j 1).isLt
  have ht : t.val < 32 := t.isLt
  obtain ⟨-, -, -, -, e4, e5, -⟩ := idx_facts t
  have hjx : (cfg0.win 2).xinj (grid0.coords t) j = ix2 ⟨(j 0).val, hj0⟩ ⟨(j 1).val, hj1⟩ :=
    funext fun a => match a with | ⟨0, _⟩ => rfl | ⟨1, _⟩ => rfl
  have hr : ((((cfg0.win 2).blk t).view.emb j) 0).val = 128 * t.val + (j 0).val := by
    show win0_2.index t (0 : Fin 2) * 128 + 1 * (j 0).val = _; omega
  have hc : ((((cfg0.win 2).blk t).view.emb j) 1).val = (j 1).val := by
    show win0_2.index t (1 : Fin 2) * 4096 + 1 * (j 1).val = _; omega
  rw [View.read_apply]
  refine (congrArg (out0_2 (iblk0 V c 0 t) (iblk0 V c 1 t)) hjx).trans ?_
  refine (out2_at (iblk0 V c 0 t) (iblk0 V c 1 t) ⟨(j 0).val / 8, by omega⟩ ⟨(j 0).val % 8, Nat.mod_lt _ (by decide)⟩ ⟨(j 1).val, hj1⟩
    ⟨(j 0).val, hj0⟩ (by show (j 0).val = 8 * ((j 0).val / 8) + (j 0).val % 8; omega)).trans ?_
  refine (blk_weight V c t ⟨(j 0).val, hj0⟩ ⟨(j 1).val, hj1⟩ ⟨128 * t.val + (j 0).val, by omega⟩ rfl).trans ?_
  exact congrArg₂ (wAtV V c) (Fin.ext hr.symm) (Fin.ext hc.symm)

/-- WHAT POINT `t` WRITES BACK to the low array is block `t` of `Wlo`. -/
theorem flushed_lo (c : Dev nD) (t : Fin cfg0.N) :
    (dat0 (F := Ideal) V c).flushed 3 t = ((cfg0.win 3).blk t).view.read (Elt Ideal) (Wlo V c) := by
  show (cfg0.win 3).cut (grid0.coords t) ((dat0 V c).after 3 t) = _
  rw [after0_3]
  funext j
  have hj0 : (j 0).val < 128 := (j 0).isLt
  have hj1 : (j 1).val < 4096 := (j 1).isLt
  have ht : t.val < 32 := t.isLt
  obtain ⟨-, -, -, -, -, -, e6, e7⟩ := idx_facts t
  have hjx : (cfg0.win 3).xinj (grid0.coords t) j = ix2 ⟨(j 0).val, hj0⟩ ⟨(j 1).val, hj1⟩ :=
    funext fun a => match a with | ⟨0, _⟩ => rfl | ⟨1, _⟩ => rfl
  have hr : ((((cfg0.win 3).blk t).view.emb j) 0).val = 128 * t.val + (j 0).val := by
    show win0_3.index t (0 : Fin 2) * 128 + 1 * (j 0).val = _; omega
  have hc : ((((cfg0.win 3).blk t).view.emb j) 1).val = (j 1).val := by
    show win0_3.index t (1 : Fin 2) * 4096 + 1 * (j 1).val = _; omega
  rw [View.read_apply]
  refine (congrArg (out0_3 (iblk0 V c 0 t) (iblk0 V c 1 t)) hjx).trans ?_
  refine (out3_at (iblk0 V c 0 t) (iblk0 V c 1 t) ⟨(j 0).val / 8, by omega⟩ ⟨(j 0).val % 8, Nat.mod_lt _ (by decide)⟩ ⟨(j 1).val, hj1⟩
    ⟨(j 0).val, hj0⟩ (by show (j 0).val = 8 * ((j 0).val / 8) + (j 0).val % 8; omega)).trans ?_
  have hw := (blk_weight V c t ⟨(j 0).val, hj0⟩ ⟨(j 1).val, hj1⟩ ⟨128 * t.val + (j 0).val, by omega⟩ rfl).trans
    (congrArg₂ (wAtV V c) (Fin.ext hr.symm) (Fin.ext hc.symm))
  exact congrArg₂ (fun a b : EReal => a - b) hw hw

/-- An index of an output array is in point `t`'s block iff each coordinate is in the block's range on its axis
    (the same for both outputs: their blocks are the same rectangles). -/
theorem mem_blk_hi (t : Fin cfg0.N) (i : S4096x4096.Idx) :
    i ∈ ((cfg0.win 2).blk t).view.set ↔ ∀ a : Fin 2, win0_2.index t a * S128x4096.size a ≤ (i a).val ∧ (i a).val < win0_2.index t a * S128x4096.size a + S128x4096.size a := by
  show i ∈ ((View.whole main_v2_0).slice (win0_2.rect t)).set ↔ _
  rw [View.set_slice_whole, Rect.mem_set_unit]
  exact Iff.rfl
theorem mem_blk_lo (t : Fin cfg0.N) (i : S4096x4096.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v2_1).slice (win0_3.rect t)).set ↔ _
  rw [View.set_slice_whole, Rect.mem_set_unit]
  exact Iff.rfl

/-- Row `k` of an output array is in the block of point `k / 128`. -/
theorem cover_hi (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  have hN : (i 0).val / 128 < cfg0.N := by show _ < 32; omega
  refine ⟨⟨(i 0).val / 128, hN⟩, flush0_2 _, ?_⟩
  obtain ⟨-, -, -, -, e4, e5, -⟩ := idx_facts ⟨(i 0).val / 128, hN⟩
  rw [mem_blk_hi]
  intro a
  match a with
  | ⟨0, _⟩ =>
    show win0_2.index ⟨(i 0).val / 128, hN⟩ (0 : Fin 2) * 128 ≤ (i 0).val ∧ (i 0).val < win0_2.index ⟨(i 0).val / 128, hN⟩ (0 : Fin 2) * 128 + 128
    rw [e4]; show (i 0).val / 128 * 128 ≤ (i 0).val ∧ (i 0).val < (i 0).val / 128 * 128 + 128; omega
  | ⟨1, _⟩ =>
    show win0_2.index ⟨(i 0).val / 128, hN⟩ (1 : Fin 2) * 4096 ≤ (i 1).val ∧ (i 1).val < win0_2.index ⟨(i 0).val / 128, hN⟩ (1 : Fin 2) * 4096 + 4096
    rw [e5]; omega
theorem cover_lo (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  have hN : (i 0).val / 128 < cfg0.N := by show _ < 32; omega
  refine ⟨⟨(i 0).val / 128, hN⟩, flush0_3 _, ?_⟩
  obtain ⟨-, -, -, -, -, -, e6, e7⟩ := idx_facts ⟨(i 0).val / 128, hN⟩
  rw [mem_blk_lo]
  intro a
  match a with
  | ⟨0, _⟩ =>
    show win0_3.index ⟨(i 0).val / 128, hN⟩ (0 : Fin 2) * 128 ≤ (i 0).val ∧ (i 0).val < win0_3.index ⟨(i 0).val / 128, hN⟩ (0 : Fin 2) * 128 + 128
    rw [e6]; show (i 0).val / 128 * 128 ≤ (i 0).val ∧ (i 0).val < (i 0).val / 128 * 128 + 128; omega
  | ⟨1, _⟩ =>
    show win0_3.index ⟨(i 0).val / 128, hN⟩ (1 : Fin 2) * 4096 ≤ (i 1).val ∧ (i 1).val < win0_3.index ⟨(i 0).val / 128, hN⟩ (1 : Fin 2) * 4096 + 4096
    rw [e7]; omega

/-- After the region the high weight array holds `W`. -/
theorem whi_final (c : Dev nD) :
    (dat0 (F := Ideal) V c).arrAt 2 cfg0.N
      = (fun i => wAtV V c ⟨(i 0).val, idx2_lt0 i⟩ ⟨(i 1).val, idx2_lt1 i⟩ : Vec Ideal S4096x4096 .bf16) :=
  (dat0 (F := Ideal) V c).arrAt_eq_of_cover 2 (Whi V c) (fun t _ => flushed_hi V c t) cover_hi

/-- After the region the low weight array holds `W - W`. -/
theorem wlo_final (c : Dev nD) :
    (dat0 (F := Ideal) V c).arrAt 3 cfg0.N
      = (fun i => wAtV V c ⟨(i 0).val, idx2_lt0 i⟩ ⟨(i 1).val, idx2_lt1 i⟩
                  - wAtV V c ⟨(i 0).val, idx2_lt0 i⟩ ⟨(i 1).val, idx2_lt1 i⟩ : Vec Ideal S4096x4096 .bf16) :=
  (dat0 (F := Ideal) V c).arrAt_eq_of_cover 3 (Wlo V c) (fun t _ => flushed_lo V c t) cover_lo

end Cert.KernelIdeal.Dequant

end
-- ==== Proof.Matmul.lean ====
/-
  The matrix-product region's value. Its grid is 8 row tiles by 4 contraction tiles; at `(i, kt)` it reads rows
  `1024i …` and columns `1024kt …` of `x` and rows `1024kt …` of the two weight arrays, resets the output block at
  `kt = 0` and adds `x·whi + x·wlo + (x - x)·whi` of the tile into it; the block is written back after `kt = 3`.
  So the result array at `(r, n)` is the sum of the four tiles' three partial products.
-/
import proofs.«401050_j87978110091557_3_alg».proof.Proof.Gen.KernelIdeal.Frame
import proofs.«401050_j87978110091557_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Matmul

open Cert.KernelIdeal Cert.KernelIdeal.Gen Cert.LutGemm

-- the buffers' contents when the region is entered
variable (V : (c : Dev nD) → (b : Ref sig .tc) → Buf (Elt Ideal) ((c : Thread nD τ).loc b))

/-- The flattened input as the region finds it. -/
abbrev xArr (c : Dev nD) : Vec Ideal S8192x4096 .f32 := V c main_v0
/-- The high and the low weight arrays as the region finds them. -/
abbrev whiArr (c : Dev nD) : Vec Ideal S4096x4096 .bf16 := V c main_v2_0
abbrev wloArr (c : Dev nD) : Vec Ideal S4096x4096 .bf16 := V c main_v2_1

/-! ## What one grid point adds, and what each case leaves in the output block -/

section Pieces
variable {F : FTy → Type} [FloatOps F]

theorem hz : (![0, 0] : Fin 2 → Nat) = fun _ => 0 := funext fun a => by fin_cases a <;> rfl

/-- The zero block the first contraction tile's point stores before it accumulates. -/
abbrev zero : Vec F S1024x4096 .f32 := broadcast S1024x4096 (Scalar.ofBits .f32 0x00000000#32)

/-- One point's addend: with `x` its block of the input and `whi`, `wlo` its blocks of the two weight arrays, the three
    products `x·whi + x·wlo + (x - x)·whi`, each into the zero splat (the operands in the narrow format). -/
def accOf (x : FVec F S1024x1024 .f32) (whi wlo : FVec F S1024x4096 .bf16) : FVec F S1024x4096 .f32 :=
  addf (addf (matmul dot_S1024x1024_S1024x4096_S1024x4096_1_0_0_1_n_n none (truncf .bf16 x bitsLt_bf16_f32) whi (constant S1024x4096 .f32 0x00000000#32))
      (matmul dot_S1024x1024_S1024x4096_S1024x4096_1_0_0_1_n_n none (truncf .bf16 x bitsLt_bf16_f32) wlo (constant S1024x4096 .f32 0x00000000#32)))
    (matmul dot_S1024x1024_S1024x4096_S1024x4096_1_0_0_1_n_n none (truncf .bf16 (subf x x) bitsLt_bf16_f32) whi (constant S1024x4096 .f32 0x00000000#32))

/-- A point that is not the first of its row tile leaves, over the block `xo` it finds, `xo` plus its addend: its one
    covering store's payload, whose loads read the whole buffers. -/
theorem out_B (c : Dev nD) (i : grid1.Coords) (a2 : Memref sig .tc .vmem S1024x1024 .f32) (h2 : a2.IsWhole)
    (a3 : Memref sig .tc .vmem S1024x4096 .bf16) (h3 : a3.IsWhole) (a4 : Memref sig .tc .vmem S1024x4096 .bf16) (h4 : a4.IsWhole)
    (a5 : Memref sig .tc .vmem S1024x4096 .f32) (h5 : a5.IsWhole) (hc : ¬cond1_0 i)
    (x : Vec F S1024x1024 .f32) (whi wlo : Vec F S1024x4096 .bf16) (xo : Vec F S1024x4096 .f32) :
    out1_B_3 c i a2 h2 a3 h3 a4 h4 a5 h5 hc x whi wlo xo = addf xo (accOf x whi wlo) := by
  unfold out1_B_3
  rw [View.read_writes_eq_canon _ _ _ (cover1_B_3 c i a2 h2 a3 h3 a4 h4 a5 h5 hc x whi wlo xo)]
  unfold kernelRun1_B
  dsimp only
  sl_unfold_words
  rw [View.canon_unit_zero hz]
  unfold k1_pay2 accOf
  simp only [View.readAt_eq_ld, h2.read_unread, h3.read_unread, h4.read_unread, h5.read_unread,
    View.ld_unit_zero (S := S1024x1024) hz, View.ld_unit_zero (S := S1024x4096) hz, shapeCast_self]

/-- The first point of a row tile stores the zero block, reads it back, and leaves zero plus its addend. -/
theorem out_A (c : Dev nD) (i : grid1.Coords) (a2 : Memref sig .tc .vmem S1024x1024 .f32) (h2 : a2.IsWhole)
    (a3 : Memref sig .tc .vmem S1024x4096 .bf16) (h3 : a3.IsWhole) (a4 : Memref sig .tc .vmem S1024x4096 .bf16) (h4 : a4.IsWhole)
    (a5 : Memref sig .tc .vmem S1024x4096 .f32) (h5 : a5.IsWhole) (hc : cond1_0 i)
    (x : Vec F S1024x1024 .f32) (whi wlo : Vec F S1024x4096 .bf16) :
    out1_A_3 c i a2 h2 a3 h3 a4 h4 a5 h5 hc x whi wlo = addf zero (accOf x whi wlo) := by
  unfold out1_A_3
  rw [View.read_writes_eq_canon _ _ _ (cover1_A_3 c i a2 h2 a3 h3 a4 h4 a5 h5 hc x whi wlo)]
  unfold kernelRun1_A
  dsimp only
  sl_unfold_words
  rw [View.canon_cons_unit_zero (S := S1024x4096) hz, View.readCov_unit_zero (S := S1024x4096) _ hz]
  unfold k1_pay2 k1_pay1 accOf
  simp only [View.readAt_eq_ld, h2.read_unread, h3.read_unread, h4.read_unread,
    View.ld_unit_zero (S := S1024x1024) hz, View.ld_unit_zero (S := S1024x4096) hz, shapeCast_self]

end Pieces

/-! ## One point's addend at an index: three sums over the 1024-long contraction -/

theorem lhs_mm_0 (j : S1024x4096.Idx) (q : dot_S1024x1024_S1024x4096_S1024x4096_1_0_0_1_n_n.contr.Idx) :
    (dot_S1024x1024_S1024x4096_S1024x4096_1_0_0_1_n_n.lhsIdx j q 0).val = (j 0).val := by
  unfold DotDims.lhsIdx
  rw [dif_neg (show ¬(0 : Fin S1024x1024.rank) ∈ dot_S1024x1024_S1024x4096_S1024x4096_1_0_0_1_n_n.lhsBatch by decide), dif_pos (show (0 : Fin S1024x1024.rank) ∈ dot_S1024x1024_S1024x4096_S1024x4096_1_0_0_1_n_n.lhsNonContracting by decide)]
  rfl
theorem lhs_mm_1 (j : S1024x4096.Idx) (q : dot_S1024x1024_S1024x4096_S1024x4096_1_0_0_1_n_n.contr.Idx) :
    (dot_S1024x1024_S1024x4096_S1024x4096_1_0_0_1_n_n.lhsIdx j q 1).val = (q ⟨0, by decide⟩).val :=
  dot_S1024x1024_S1024x4096_S1024x4096_1_0_0_1_n_n.lhsIdx_val_of_single rfl j q
theorem rhs_mm_0 (j : S1024x4096.Idx) (q : dot_S1024x1024_S1024x4096_S1024x4096_1_0_0_1_n_n.contr.Idx) :
    (dot_S1024x1024_S1024x4096_S1024x4096_1_0_0_1_n_n.rhsIdx j q 0).val = (q ⟨0, by decide⟩).val :=
  dot_S1024x1024_S1024x4096_S1024x4096_1_0_0_1_n_n.rhsIdx_val_of_single rfl j q
theorem rhs_mm_1 (j : S1024x4096.Idx) (q : dot_S1024x1024_S1024x4096_S1024x4096_1_0_0_1_n_n.contr.Idx) :
    (dot_S1024x1024_S1024x4096_S1024x4096_1_0_0_1_n_n.rhsIdx j q 1).val = (j 1).val := by
  unfold DotDims.rhsIdx
  rw [dif_neg (show ¬(1 : Fin S1024x4096.rank) ∈ dot_S1024x1024_S1024x4096_S1024x4096_1_0_0_1_n_n.rhsBatch by decide), dif_pos (show (1 : Fin S1024x4096.rank) ∈ dot_S1024x1024_S1024x4096_S1024x4096_1_0_0_1_n_n.rhsNonContracting by decide)]
  rfl

/-- A product of two blocks into the zero splat, at `(r, n)`: the sum over the contraction index `kk` of
    `a (r, kk) * b (kk, n)`. -/
theorem mm_apply (a : FVec Ideal S1024x1024 .bf16) (b : FVec Ideal S1024x4096 .bf16) (r : Fin 1024) (n : Fin 4096) :
    matmul (F := Ideal) dot_S1024x1024_S1024x4096_S1024x4096_1_0_0_1_n_n none a b (constant S1024x4096 .f32 0x00000000#32) (ix2 r n)
      = ∑ kk : Fin 1024, a (ix2 r kk) * b (ix2 kk n) := by
  simp only [matmul]
  rw [Ideal.matmul_constant_zero_apply, ← Equiv.sum_comp (ValueIdx.contrEquiv1 dot_S1024x1024_S1024x4096_S1024x4096_1_0_0_1_n_n 1024 rfl rfl).symm]
  refine Finset.sum_congr rfl fun k _ => ?_
  have hk := ValueIdx.contrEquiv1_symm_val dot_S1024x1024_S1024x4096_S1024x4096_1_0_0_1_n_n 1024 rfl rfl k
  have el : dot_S1024x1024_S1024x4096_S1024x4096_1_0_0_1_n_n.lhsIdx (ix2 r n) ((ValueIdx.contrEquiv1 dot_S1024x1024_S1024x4096_S1024x4096_1_0_0_1_n_n 1024 rfl rfl).symm k) = ix2 r k := funext fun d => Fin.ext (by
    match d with
    | ⟨0, _⟩ => exact lhs_mm_0 _ _
    | ⟨1, _⟩ => exact (lhs_mm_1 _ _).trans hk)
  have er : dot_S1024x1024_S1024x4096_S1024x4096_1_0_0_1_n_n.rhsIdx (ix2 r n) ((ValueIdx.contrEquiv1 dot_S1024x1024_S1024x4096_S1024x4096_1_0_0_1_n_n 1024 rfl rfl).symm k) = ix2 k n := funext fun d => Fin.ext (by
    match d with
    | ⟨0, _⟩ => exact (rhs_mm_0 _ _).trans hk
    | ⟨1, _⟩ => exact rhs_mm_1 _ _)
  rw [el, er]

/-- One point's addend at `(r, n)`. -/
theorem accOf_apply (x : FVec Ideal S1024x1024 .f32) (whi wlo : FVec Ideal S1024x4096 .bf16) (r : Fin 1024) (n : Fin 4096) :
    accOf (F := Ideal) x whi wlo (ix2 r n)
      = (∑ kk : Fin 1024, x (ix2 r kk) * whi (ix2 kk n))
        + (∑ kk : Fin 1024, x (ix2 r kk) * wlo (ix2 kk n))
        + (∑ kk : Fin 1024, (x (ix2 r kk) - x (ix2 r kk)) * whi (ix2 kk n)) := by
  unfold accOf
  show (matmul (F := Ideal) dot_S1024x1024_S1024x4096_S1024x4096_1_0_0_1_n_n none _ whi _ (ix2 r n) + matmul (F := Ideal) dot_S1024x1024_S1024x4096_S1024x4096_1_0_0_1_n_n none _ wlo _ (ix2 r n))
      + matmul (F := Ideal) dot_S1024x1024_S1024x4096_S1024x4096_1_0_0_1_n_n none _ whi _ (ix2 r n) = _
  rw [mm_apply, mm_apply, mm_apply]
  rfl

/-! ## The blocks a point reads, in the arrays

Point `t` of the 8 by 4 grid is row tile `t / 4` and contraction tile `t % 4`: its block of the input is rows
`1024 (t / 4) …` and columns `1024 (t % 4) …`, its blocks of the weights are rows `1024 (t % 4) …` and all columns, and
its block of the result is rows `1024 (t / 4) …` and all columns. -/

theorem pt_lt (t : Fin cfg1.N) : t.val < 32 := lt_of_lt_of_eq t.isLt (show cfg1.N = 32 from N_1)

/-- Row `1024 q + r` of row tile `q`. -/
abbrev rowAt (q : Fin 8) (r : Fin 1024) : Fin 8192 := ⟨1024 * q.val + r.val, by have := q.isLt; have := r.isLt; omega⟩

/-- The printed index maps, decided once over the grid. -/
theorem idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val % 4 ∧ win1_2.index t (1 : Fin 2) = 0
    ∧ win1_3.index t (0 : Fin 2) = t.val / 4 ∧ win1_3.index t (1 : Fin 2) = 0 :=
  (by decide +kernel : ∀ t : Fin grid1.N, _)

/-- A point's blocks of the input and of the two weight arrays. -/
abbrev xBlk (c : Dev nD) (t : Fin cfg1.N) : Vec Ideal S1024x1024 .f32 := iblk1 V c 0 t
abbrev hiBlk (c : Dev nD) (t : Fin cfg1.N) : Vec Ideal S1024x4096 .bf16 := iblk1 V c 1 t
abbrev loBlk (c : Dev nD) (t : Fin cfg1.N) : Vec Ideal S1024x4096 .bf16 := iblk1 V c 2 t

theorem xBlk_apply (c : Dev nD) (t : Fin cfg1.N) (q : Fin 8) (kt : Fin 4) (hq : t.val / 4 = q.val) (hk : t.val % 4 = kt.val)
    (r kk : Fin 1024) : xBlk V c t (ix2 r kk) = xArr V c (ix2 (rowAt q r) (kAt kt kk)) := by
  obtain ⟨e0, e1, -⟩ := idx_facts t
  show iblk1 V c 0 t (ix2 r kk) = V c main_v0 (ix2 (rowAt q r) (kAt kt kk))
  unfold iblk1
  rw [View.read_apply]
  show V c main_v0 _ = V c main_v0 _
  congr 1
  funext a
  apply Fin.ext
  match a with
  | ⟨0, _⟩ => show win1_0.index t (0 : Fin 2) * 1024 + 1 * r.val = 1024 * q.val + r.val; rw [e0, hq]; omega
  | ⟨1, _⟩ => show win1_0.index t (1 : Fin 2) * 1024 + 1 * kk.val = 1024 * kt.val + kk.val; rw [e1, hk]; omega

theorem hiBlk_apply (c : Dev nD) (t : Fin cfg1.N) (kt : Fin 4) (hk : t.val % 4 = kt.val) (kk : Fin 1024) (n : Fin 4096) :
    hiBlk V c t (ix2 kk n) = whiArr V c (ix2 (kAt kt kk) n) := by
  obtain ⟨-, -, e0, e1, -⟩ := idx_facts t
  show iblk1 V c 1 t (ix2 kk n) = V c main_v2_0 (ix2 (kAt kt kk) n)
  unfold iblk1
  rw [View.read_apply]
  show V c main_v2_0 _ = V c main_v2_0 _
  congr 1
  funext a
  apply Fin.ext
  match a with
  | ⟨0, _⟩ => show win1_1.index t (0 : Fin 2) * 1024 + 1 * kk.val = 1024 * kt.val + kk.val; rw [e0, hk]; omega
  | ⟨1, _⟩ => show win1_1.index t (1 : Fin 2) * 4096 + 1 * n.val = n.val; rw [e1]; omega

theorem loBlk_apply (c : Dev nD) (t : Fin cfg1.N) (kt : Fin 4) (hk : t.val % 4 = kt.val) (kk : Fin 1024) (n : Fin 4096) :
    loBlk V c t (ix2 kk n) = wloArr V c (ix2 (kAt kt kk) n) := by
  obtain ⟨-, -, -, -, e0, e1, -⟩ := idx_facts t
  show iblk1 V c 2 t (ix2 kk n) = V c main_v2_1 (ix2 (kAt kt kk) n)
  unfold iblk1
  rw [View.read_apply]
  show V c main_v2_1 _ = V c main_v2_1 _
  congr 1
  funext a
  apply Fin.ext
  match a with
  | ⟨0, _⟩ => show win1_2.index t (0 : Fin 2) * 1024 + 1 * kk.val = 1024 * kt.val + kk.val; rw [e0, hk]; omega
  | ⟨1, _⟩ => show win1_2.index t (1 : Fin 2) * 4096 + 1 * n.val = n.val; rw [e1]; omega

/-- So a point's addend at `(r, n)` of its block is its contraction tile's three partial products at row
    `1024 (t / 4) + r` of the arrays. -/
theorem addend_apply (c : Dev nD) (t : Fin cfg1.N) (q : Fin 8) (kt : Fin 4) (hq : t.val / 4 = q.val) (hk : t.val % 4 = kt.val)
    (r : Fin 1024) (n : Fin 4096) :
    accOf (F := Ideal) (xBlk V c t) (hiBlk V c t) (loBlk V c t) (ix2 r n)
      = tileAt (xArr V c) (whiArr V c) (wloArr V c) kt (rowAt q r) n := by
  rw [accOf_apply]
  unfold tileAt
  simp only [xBlk_apply V c t q kt hq hk, hiBlk_apply V c t kt hk, loBlk_apply V c t kt hk]

/-! ## The output block after each point: a fold over the row tile's four points -/

/-- What the first point of a row tile leaves, and what a later point makes of what it finds. -/
def resetAt (c : Dev nD) (n : ℕ) (h : n < cfg1.N) : S1024x4096.Idx → EReal :=
  addf zero (accOf (F := Ideal) (xBlk V c ⟨n, h⟩) (hiBlk V c ⟨n, h⟩) (loBlk V c ⟨n, h⟩))
def stepAt (c : Dev nD) (n : ℕ) (h : n < cfg1.N) (acc : S1024x4096.Idx → EReal) : S1024x4096.Idx → EReal :=
  addf acc (accOf (F := Ideal) (xBlk V c ⟨n, h⟩) (hiBlk V c ⟨n, h⟩) (loBlk V c ⟨n, h⟩))
/-- Point `n`'s addend as a function of every natural (zero past the grid, where it is never read). -/
def addendAt (c : Dev nD) (n : ℕ) : S1024x4096.Idx → EReal :=
  fun i => if h : n < cfg1.N then accOf (F := Ideal) (xBlk V c ⟨n, h⟩) (hiBlk V c ⟨n, h⟩) (loBlk V c ⟨n, h⟩) i else 0

theorem outs_reset (c : Dev nD) (n : ℕ) (h : n < cfg1.N) (h0 : n % 4 = 0) : outsAt1 V c n h = resetAt V c n h := by
  rw [outsAt1_A V c ⟨n, h⟩ h0]
  exact out_A (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩)
    (ms1_3 ⟨n, h⟩) (hs1_3 ⟨n, h⟩) ((hcond1_0 ⟨n, h⟩).mpr h0) (iblk1 V c 0 ⟨n, h⟩) (iblk1 V c 1 ⟨n, h⟩) (iblk1 V c 2 ⟨n, h⟩)

theorem outs_step (c : Dev nD) (n : ℕ) (h : n + 1 < cfg1.N) (hne : ¬(n + 1) % 4 = 0) :
    outsAt1 V c (n + 1) h = stepAt V c (n + 1) h (outsAt1 V c n (Nat.lt_of_succ_lt h)) := by
  rw [outsAt1_B V c ⟨n + 1, h⟩ hne]
  dsimp only
  exact out_B (F := Ideal) c (grid1.coords ⟨n + 1, h⟩) (ms1_0 ⟨n + 1, h⟩) (hs1_0 ⟨n + 1, h⟩) (ms1_1 ⟨n + 1, h⟩) (hs1_1 ⟨n + 1, h⟩)
    (ms1_2 ⟨n + 1, h⟩) (hs1_2 ⟨n + 1, h⟩) (ms1_3 ⟨n + 1, h⟩) (hs1_3 ⟨n + 1, h⟩) (fun hh => hne ((hcond1_0 ⟨n + 1, h⟩).mp hh))
    (iblk1 V c 0 ⟨n + 1, h⟩) (iblk1 V c 1 ⟨n + 1, h⟩) (iblk1 V c 2 ⟨n + 1, h⟩) (outsAt1 V c n (Nat.lt_of_succ_lt h))

/-- At the last point of a row tile the output block holds the four points' addends added up (from the zero block). -/
theorem outs_fold (c : Dev nD) (t : Fin cfg1.N) (ht : t.val % 4 = 3) (i : S1024x4096.Idx) :
    outsAt1 V c t.val t.isLt i = ∑ kt : Fin 4, addendAt V c (4 * (t.val / 4) + kt.val) i := by
  have h' : 4 * (t.val / 4) + t.val % 4 < cfg1.N := by rw [Nat.div_add_mod]; exact t.isLt
  rw [Pipeline.eq_accAt_of_mod (α := S1024x4096.Idx → EReal) (outsAt1 V c) 4 (resetAt V c) (stepAt V c) (outs_reset V c) (outs_step V c)
    (by decide) t.val t.isLt h']
  rw [Pipeline.accAt_add_apply (ι := S1024x4096.Idx) (β := EReal) (resetAt V c) (stepAt V c) (zero (F := Ideal)) (addendAt V c) (4 * (t.val / 4)) 3
    (fun h i => by unfold resetAt addendAt; rw [dif_pos h]; rfl)
    (fun n h acc i _ _ => by unfold stepAt addendAt; rw [dif_pos h]; rfl) (t.val % 4) (by omega) h' i]
  rw [ht]
  have hz0 : zero (F := Ideal) i = 0 := Ideal.ofBits_zero_f32
  rw [hz0, zero_add, Finset.sum_range]

/-- Read at `(r, n)` of the block and in the arrays: the four contraction tiles' partial products at row `1024 (t / 4) + r`. -/
theorem outs_flush_apply (c : Dev nD) (t : Fin cfg1.N) (ht : t.val % 4 = 3) (q : Fin 8) (hq : t.val / 4 = q.val) (r : Fin 1024) (n : Fin 4096) :
    outsAt1 V c t.val t.isLt (ix2 r n) = mmAt (xArr V c) (whiArr V c) (wloArr V c) (rowAt q r) n := by
  rw [outs_fold V c t ht]
  unfold mmAt
  refine Finset.sum_congr rfl fun kt _ => ?_
  have hlt : 4 * (t.val / 4) + kt.val < cfg1.N :=
    lt_of_lt_of_eq (by have := pt_lt t; have := kt.isLt; omega) (show (32 : ℕ) = cfg1.N from N_1.symm)
  unfold addendAt
  rw [dif_pos hlt]
  exact addend_apply V c ⟨4 * (t.val / 4) + kt.val, hlt⟩ q kt
    (by show (4 * (t.val / 4) + kt.val) / 4 = q.val; have := kt.isLt; omega)
    (by show (4 * (t.val / 4) + kt.val) % 4 = kt.val; have := kt.isLt; omega) r n

/-! ## From the blocks to the array -/

/-- The result as one function of the arrays. -/
abbrev mmArr (c : Dev nD) : Vec Ideal S8192x4096 .f32 :=
  fun i => mmAt (xArr V c) (whiArr V c) (wloArr V c) ⟨(i 0).val, idx2_lt0 i⟩ ⟨(i 1).val, idx2_lt1 i⟩

/-- What a writing-back point writes back is its block of that function. -/
theorem flushed_eq (c : Dev nD) (t : Fin cfg1.N) (hf : (cfg1.win 3).flush t = true) :
    (dat1 (F := Ideal) V c).flushed 3 t = ((cfg1.win 3).blk t).view.read (Elt Ideal) (mmArr V c) := by
  have ht : t.val % 4 = 3 := (flush1_3 t).mp hf
  have hN := pt_lt t
  obtain ⟨-, -, -, -, -, -, e0, e1⟩ := idx_facts t
  show (cfg1.win 3).cut (grid1.coords t) ((dat1 (F := Ideal) V c).after 3 t) = _
  rw [after1_3]
  funext y
  rw [View.read_apply]
  have hy0 : (y 0).val < 1024 := (y 0).isLt
  have hy1 : (y 1).val < 4096 := (y 1).isLt
  have hq : t.val / 4 < 8 := by omega
  show outsAt1 V c t.val t.isLt y = _
  refine (congrArg (outsAt1 V c t.val t.isLt) (show y = ix2 ⟨(y 0).val, hy0⟩ ⟨(y 1).val, hy1⟩ from
    funext fun a => by match a with | ⟨0, _⟩ => rfl | ⟨1, _⟩ => rfl)).trans ?_
  rw [outs_flush_apply V c t ht ⟨t.val / 4, hq⟩ rfl]
  show mmAt _ _ _ _ _ = mmAt _ _ _ _ _
  congr 1 <;> apply Fin.ext
  · show 1024 * (t.val / 4) + (y 0).val = win1_3.index t (0 : Fin 2) * 1024 + 1 * (y 0).val
    rw [e0]; omega
  · show (y 1).val = win1_3.index t (1 : Fin 2) * 4096 + 1 * (y 1).val
    rw [e1]; omega

/-- An index of the array is in point `t`'s block iff each coordinate is in the block's range on its axis. -/
theorem mem_blk (t : Fin cfg1.N) (i : S8192x4096.Idx) :
    i ∈ ((cfg1.win 3).blk t).view.set ↔ ∀ a : Fin 2, win1_3.index t a * S1024x4096.size a ≤ (i a).val ∧ (i a).val < win1_3.index t a * S1024x4096.size a + S1024x4096.size a := by
  show i ∈ ((View.whole main_v3).slice (win1_3.rect t)).set ↔ _
  rw [View.set_slice_whole, Rect.mem_set_unit]
  exact Iff.rfl

/-- Row `r` of the array is written back by the last point of its row tile, point `4 (r / 1024) + 3`. -/
theorem cover (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have hlt : 4 * ((i 0).val / 1024) + 3 < cfg1.N := lt_of_lt_of_eq (by omega) (show (32 : ℕ) = cfg1.N from N_1.symm)
  refine ⟨⟨4 * ((i 0).val / 1024) + 3, hlt⟩, (flush1_3 _).mpr (by show (4 * ((i 0).val / 1024) + 3) % 4 = 3; omega), ?_⟩
  obtain ⟨-, -, -, -, -, -, e0, e1⟩ := idx_facts ⟨4 * ((i 0).val / 1024) + 3, hlt⟩
  have e0' : win1_3.index ⟨4 * ((i 0).val / 1024) + 3, hlt⟩ (0 : Fin 2) = (4 * ((i 0).val / 1024) + 3) / 4 := e0
  rw [mem_blk]
  intro a
  match a with
  | ⟨0, _⟩ =>
    show win1_3.index ⟨4 * ((i 0).val / 1024) + 3, hlt⟩ (0 : Fin 2) * 1024 ≤ (i 0).val
      ∧ (i 0).val < win1_3.index ⟨4 * ((i 0).val / 1024) + 3, hlt⟩ (0 : Fin 2) * 1024 + 1024
    rw [e0']; omega
  | ⟨1, _⟩ =>
    show win1_3.index ⟨4 * ((i 0).val / 1024) + 3, hlt⟩ (1 : Fin 2) * 4096 ≤ (i 1).val
      ∧ (i 1).val < win1_3.index ⟨4 * ((i 0).val / 1024) + 3, hlt⟩ (1 : Fin 2) * 4096 + 4096
    rw [e1]; omega

/-- After the region the result array holds, at `(r, n)`, the four contraction tiles' partial products added up. -/
theorem out_final (c : Dev nD) :
    (dat1 (F := Ideal) V c).arrAt 3 cfg1.N
      = (fun i => mmAt (xArr V c) (whiArr V c) (wloArr V c) ⟨(i 0).val, idx2_lt0 i⟩ ⟨(i 1).val, idx2_lt1 i⟩
          : Vec Ideal S8192x4096 .f32) :=
  (dat1 (F := Ideal) V c).arrAt_eq_of_cover 3 (mmArr V c) (flushed_eq V c) cover

end Cert.KernelIdeal.Matmul

end
-- ==== Proof.Finite.lean ====
/-
  From the precondition to finiteness: `finite_inputs` says every entry of `input` and of `lut` has absolute value below
  +∞, so each is a real number. The laws that make the kernel's low parts vanish (`x - x = 0`) need exactly this.
-/
import proofs.«401050_j87978110091557_3_alg».proof.Defs
import proofs.«401050_j87978110091557_3_alg».proof.Proof.Gen.Pre_finite_inputs
import Idealize.ShloMosaic.Lib.ReduceAll
import Idealize.ShloMosaic.Lib.ValueIdx
import Idealize.ShloMosaic.PureOps.Ideal.Laws

noncomputable section

open Idealize.ShloMosaic Idealize.ShloMosaic.TcCoe Idealize.SL.Sem
open Idealize.ShloMosaic.ValueIdx

namespace Cert.KernelIdeal.Finite

open Cert.KernelIdeal

/-- The predicate's scalar results have exactly one index. -/
instance : Subsingleton Cert.Pre_finite_inputs.S_.Idx := ⟨fun a b => funext fun d => d.elim0⟩

/-- An extended real whose absolute value `max x (-x)` is below `+∞` is neither infinity: it is a real number. -/
theorem real_of_abs_lt_top (x : EReal) (h : max x (-x) < ⊤) : ∃ a : ℝ, x = (a : EReal) := by
  induction x using EReal.rec with
  | bot => simp at h
  | coe a => exact ⟨a, rfl⟩
  | top => simp at h

/-- The pattern `0x7F800000` denotes `+∞`, so the comparison `|x| < 0x7F800000` answering the bit 1 says
    `max x (-x) < ⊤`. -/
theorem abs_lt_top_of_cmp (x : EReal)
    (h : Ideal.cmp .olt (max x (-x)) (Ideal.ofBits .f32 0x7F800000#32) = 1#1) : max x (-x) < ⊤ := by
  have htop : Ideal.ofBits .f32 0x7F800000#32 = (⊤ : EReal) := by simp [Ideal.ofBits, Ideal.ieee]
  rw [htop] at h
  by_cases hlt : max x (-x) < ⊤
  · exact hlt
  · exfalso
    simp [Ideal.cmp, hlt] at h

/-- Under the precondition every entry of `input` is a real number. -/
theorem input_real (m : (ℓ : Loc nD τ sig) → Buf (Elt Ideal) ℓ)
    (h : Cert.Pre_KernelIdeal (hPre_finite_inputs := Cert.Pre_finite_inputs.Gen.facts) m) (c : Dev nD)
    (i : S4x2048x4096.Idx) : ∃ a : ℝ, m ((c.tc : Thread nD τ).loc main_arg0) i = (a : EReal) := by
  -- the predicate at its one index: the conjunction of the two `all`s is the bit 1, so each `all` is
  have h0 := congrFun (h c) ValueIdx.ix0
  dsimp only [Cert.Pre_finite_inputs.fn] at h0
  obtain ⟨h1, h2⟩ := IntOp.andi_eq_one.1 h0
  -- an `all` that is 1 had a 1 at every index: `|input i| < +∞`
  have he := Host.reduce_andi_all _ _ _ _ _ h1 i
  exact real_of_abs_lt_top _ (abs_lt_top_of_cmp _ he)

/-- Under the precondition every entry of `lut` is a real number. -/
theorem lut_real (m : (ℓ : Loc nD τ sig) → Buf (Elt Ideal) ℓ)
    (h : Cert.Pre_KernelIdeal (hPre_finite_inputs := Cert.Pre_finite_inputs.Gen.facts) m) (c : Dev nD)
    (i : S4096x16.Idx) : ∃ a : ℝ, m ((c.tc : Thread nD τ).loc main_arg2) i = (a : EReal) := by
  have h0 := congrFun (h c) ValueIdx.ix0
  dsimp only [Cert.Pre_finite_inputs.fn] at h0
  obtain ⟨h1, h2⟩ := IntOp.andi_eq_one.1 h0
  -- the second `all`: `|lut i| < +∞` at every index
  have he := Host.reduce_andi_all _ _ _ _ _ h2 i
  exact real_of_abs_lt_top _ (abs_lt_top_of_cmp _ he)

end Cert.KernelIdeal.Finite

end
-- ==== Proof.KernelValue.lean ====
/-
  The kernel's result, as one function of the three arguments. The result buffer is the reshape of the product array;
  the product array at `(r, n)` is the four contraction tiles' partial products over `x`, the high weights and the low
  weights; `x` is the reshape of `input`; the high weights are `W` over the transposed table, which is `W` over `lut`,
  and the low weights are `W - W`. Under the precondition every entry of `input` and of `lut` is a real number, so the
  low parts vanish and the tiles add up: the result at `(b, s, n)` is `∑ k, input[b, s, k] * W[k, n]`.
-/
import proofs.«401050_j87978110091557_3_alg».proof.Defs
import proofs.«401050_j87978110091557_3_alg».proof.Proof.ValueRun
import proofs.«401050_j87978110091557_3_alg».proof.Proof.Host
import proofs.«401050_j87978110091557_3_alg».proof.Proof.Dequant
import proofs.«401050_j87978110091557_3_alg».proof.Proof.Matmul
import proofs.«401050_j87978110091557_3_alg».proof.Proof.Finite
import proofs.«401050_j87978110091557_3_alg».proof.Proof.Spec

noncomputable section

open Idealize.ShloMosaic Idealize.ShloMosaic.TcCoe Idealize.SL.Sem
open Idealize.ShloMosaic.ValueIdx

namespace Cert.KernelIdeal.KernelValue

open Cert.KernelIdeal Cert.KernelIdeal.Gen Cert.KernelIdeal.HostVals Cert.LutGemm

variable (m : (ℓ : Loc nD τ sig) → Buf (Elt Ideal) ℓ) (ρ : Dev nD → PrngReg)

/-- The three arguments as launched, by their literal types. -/
abbrev inpArr (c : Dev nD) : Vec Ideal S4x2048x4096 .f32 := m ((c.tc : Thread nD τ).loc main_arg0)
abbrev qwArr (c : Dev nD) : Vec Ideal S512x4096 .i32 := m ((c.tc : Thread nD τ).loc main_arg1)
abbrev lutArr (c : Dev nD) : Vec Ideal S4096x16 .f32 := m ((c.tc : Thread nD τ).loc main_arg2)

/-- The result as one function of the arguments: the whole product, index by index. -/
def result (c : Dev nD) : Buf (Elt Ideal) ((c.tc : Thread nD τ).loc main_v4) :=
  (fun i => gemmAt (inpArr m c) (qwArr m c) (lutArr m c) ⟨(i 0).val, (i 0).isLt⟩ ⟨(i 1).val, (i 1).isLt⟩ ⟨(i 2).val, (i 2).isLt⟩
    : Vec Ideal S4x2048x4096 .f32)

/-- The weight region 0 computes from what it finds is `W` over the arguments: the words are as launched and the table
    it reads is the transpose of `lut`. -/
theorem weight_entry (c : Dev nD) (k n : Fin 4096) :
    Dequant.wAtV (V1 m ρ) c k n = wAt (qwArr m c) (lutArr m c) k n := by
  unfold Dequant.wAtV
  refine (wOfT_transpose (Dequant.qwArr (V1 m ρ) c) (lutArr m c) (Dequant.lutTArr (V1 m ρ) c) (fun code n' => ?_) k n).trans ?_
  · show V1 m ρ c main_v1 (ix2 code n') = _
    rw [entry0_lutT m ρ c]
    exact lutT_apply _ code n'
  · show wAt (V1 m ρ c main_arg1) (lutArr m c) k n = _
    rw [entry0_qw m ρ c]

/-- The high weights region 1 finds are `W`. -/
theorem whi_entry (c : Dev nD) (k n : Fin 4096) :
    Matmul.whiArr (V2 m ρ) c (ix2 k n) = wAt (qwArr m c) (lutArr m c) k n := by
  show V2 m ρ c main_v2_0 (ix2 k n) = _
  rw [entry1_whi m ρ c, Dequant.whi_final (V1 m ρ) c]
  exact weight_entry m ρ c k n

/-- The low weights region 1 finds are `W - W`. -/
theorem wlo_entry (c : Dev nD) (k n : Fin 4096) :
    Matmul.wloArr (V2 m ρ) c (ix2 k n) = wAt (qwArr m c) (lutArr m c) k n - wAt (qwArr m c) (lutArr m c) k n := by
  show V2 m ρ c main_v2_1 (ix2 k n) = _
  rw [entry1_wlo m ρ c, Dequant.wlo_final (V1 m ρ) c]
  show Dequant.wAtV (V1 m ρ) c k n - Dequant.wAtV (V1 m ρ) c k n = _
  rw [weight_entry m ρ c k n]

/-- Row `2048 b + s` of the `x` region 1 finds is `input[b, s, ·]`. -/
theorem x_entry (c : Dev nD) (b : Fin 4) (s : Fin 2048) (k : Fin 4096) :
    Matmul.xArr (V2 m ρ) c (ix2 (flatRow b s) k) = inpArr m c (ix3 b s k) := by
  show V2 m ρ c main_v0 (ix2 (flatRow b s) k) = _
  rw [entry1_x m ρ c, entry0_x m ρ c]
  exact flatten_apply _ b s k

/-- Every entry of `x` is a real number under the precondition: it is an entry of `input`. -/
theorem x_real (h : Cert.Pre_KernelIdeal (hPre_finite_inputs := Cert.Pre_finite_inputs.Gen.facts) m) (c : Dev nD)
    (i : S8192x4096.Idx) : ∃ a : ℝ, Matmul.xArr (V2 m ρ) c i = (a : EReal) := by
  have hr : (i 0).val < 8192 := idx2_lt0 i
  have hk : (i 1).val < 4096 := idx2_lt1 i
  -- row `r` is `2048 (r / 2048) + r mod 2048`
  have hi : i = ix2 (flatRow ⟨(i 0).val / 2048, by omega⟩ ⟨(i 0).val % 2048, Nat.mod_lt _ (by decide)⟩) ⟨(i 1).val, hk⟩ := by
    funext a
    match a with
    | ⟨0, _⟩ => exact Fin.ext (by show (i 0).val = 2048 * ((i 0).val / 2048) + (i 0).val % 2048; omega)
    | ⟨1, _⟩ => rfl
  rw [hi, x_entry m ρ c]
  exact Finite.input_real m h c _

/-- THE KERNEL'S VALUE: the last boundary's contents of the result buffer are the whole product of the arguments. -/
theorem result_eq_gemm (h : Cert.Pre_KernelIdeal (hPre_finite_inputs := Cert.Pre_finite_inputs.Gen.facts) m) (c : Dev nD) :
    W4 m ρ c (Proc.devRef .tc main_v4) = result m c := by
  funext i
  obtain ⟨b, s, n, rfl⟩ : ∃ (b : Fin 4) (s : Fin 2048) (n : Fin 4096), i = ix3 b s n :=
    ⟨⟨(i 0).val, (i 0).isLt⟩, ⟨(i 1).val, (i 1).isLt⟩, ⟨(i 2).val, (i 2).isLt⟩, eq_ix3 i⟩
  rw [HostVals.result_eq m ρ c, unflatten_apply, exit1_out m ρ c, Matmul.out_final (V2 m ρ) c]
  show mmAt (Matmul.xArr (V2 m ρ) c) (Matmul.whiArr (V2 m ρ) c) (Matmul.wloArr (V2 m ρ) c) (flatRow b s) n
      = gemmAt (inpArr m c) (qwArr m c) (lutArr m c) b s n
  rw [mmAt_eq_sum (Matmul.xArr (V2 m ρ) c) (fun k n => wAt (qwArr m c) (lutArr m c) k n) (Matmul.whiArr (V2 m ρ) c)
    (Matmul.wloArr (V2 m ρ) c) (x_real m ρ h c)
    (fun k n => Finite.lut_real m h c _) (whi_entry m ρ c) (wlo_entry m ρ c) (flatRow b s) n]
  unfold gemmAt
  exact Finset.sum_congr rfl fun k _ => by rw [x_entry m ρ c b s k]

/-- The kernel's run with its result named: every weakly fair execution of @main terminates, nothing faulting, with
    the result buffer at the whole product of the arguments and the arguments as launched. -/
theorem run (h : Cert.Pre_KernelIdeal (hPre_finite_inputs := Cert.Pre_finite_inputs.Gen.facts) m) :
    θ_run (defs (F := Ideal)) (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hr c => ⟨(hr c).1.trans (result_eq_gemm m ρ h c), (hr c).2⟩)
    (Cert.KernelIdeal.GenP.run_named (F := Ideal) m ρ)

end Cert.KernelIdeal.KernelValue

end
-- ==== Proof.RefRun.lean ====
/-
  The reference's run, read over its stages. @main is 37 host operations in a straight line (the operation list and its
  side facts are in Proof/RefOps.lean); every weakly fair execution ends with each buffer at the fold of the operations'
  results over the launch contents. Read one operation at a time, the result buffer holds the last stage,
  `val_main_v13` of the three arguments (Proof/RefRead.lean names every stage): each operation's result is its function
  of the buffers it reads, those hold the stages before it, and no later operation writes a buffer again.
-/
import proofs.«401050_j87978110091557_3_alg».proof.Proof.RefOps
import proofs.«401050_j87978110091557_3_alg».proof.Proof.RefRead

noncomputable section

namespace Cert.ReferenceIdeal.RunH

open Cert.ReferenceIdeal Cert.ReferenceIdeal.Gen Cert.ReferenceIdeal.RunP
open Idealize.ShloMosaic Idealize.ShloMosaic.TcCoe Idealize.SL.Sem Idealize.ShloMosaic.StableHlo
open Cert.ReferenceIdeal.ReadP

variable {F : FTy → Type} [FloatOps F]

/-! ### One operation at a time

Running one operation from contents `W` gives contents `W'` that hold the operation's function of `W`'s operands at
the result buffer and agree with `W` at every other reference. Each lemma takes what `W` holds at the operands and
hands the rest of the line exactly these two facts, the first with the operands' values in place. -/

theorem nullary_step {y : Ref sig .tc} {v₀ : y.ty.Contents (Elt F)} {hy} {rest : List (HloOp τ sig (Elt F))} {W : Valuation τ sig (Elt F)} {b : DevRef τ sig} {v : b.ty.Contents (Elt F)}
    (h : ∀ W' : Valuation τ sig (Elt F), W' (y : DevRef τ sig) = v₀ →
      (∀ r : Ref sig .tc, r ≠ y → W' (r : DevRef τ sig) = W (r : DevRef τ sig)) → after rest W' b = v) :
    after (nullary y v₀ hy :: rest) W b = v := by
  rw [after_cons]
  exact h _ (nullary_result y v₀ hy W) fun r hr => nullary_result_ne y v₀ hy W hr

theorem unary_step {x y : Ref sig .tc} {f : x.ty.Contents (Elt F) → y.ty.Contents (Elt F)} {hx hy} {rest : List (HloOp τ sig (Elt F))} {W : Valuation τ sig (Elt F)} {b : DevRef τ sig} {v : b.ty.Contents (Elt F)}
    {vx : x.ty.Contents (Elt F)} (ex : W (x : DevRef τ sig) = vx)
    (h : ∀ W' : Valuation τ sig (Elt F), W' (y : DevRef τ sig) = f vx →
      (∀ r : Ref sig .tc, r ≠ y → W' (r : DevRef τ sig) = W (r : DevRef τ sig)) → after rest W' b = v) :
    after (unary x y f hx hy :: rest) W b = v := by
  subst ex
  rw [after_cons]
  exact h _ (unary_result x y f hx hy W) fun r hr => unary_result_ne x y f hx hy W hr

theorem binary_step {a₁ a₂ y : Ref sig .tc} {f : a₁.ty.Contents (Elt F) → a₂.ty.Contents (Elt F) → y.ty.Contents (Elt F)}
    {h₁ h₂ hy} {rest : List (HloOp τ sig (Elt F))} {W : Valuation τ sig (Elt F)} {b : DevRef τ sig} {v : b.ty.Contents (Elt F)}
    {v₁ : a₁.ty.Contents (Elt F)} {v₂ : a₂.ty.Contents (Elt F)}
    (e₁ : W (a₁ : DevRef τ sig) = v₁) (e₂ : W (a₂ : DevRef τ sig) = v₂)
    (h : ∀ W' : Valuation τ sig (Elt F), W' (y : DevRef τ sig) = f v₁ v₂ →
      (∀ r : Ref sig .tc, r ≠ y → W' (r : DevRef τ sig) = W (r : DevRef τ sig)) → after rest W' b = v) :
    after (binary a₁ a₂ y f h₁ h₂ hy :: rest) W b = v := by
  subst e₁ e₂
  rw [after_cons]
  exact h _ (binary_result a₁ a₂ y f h₁ h₂ hy W) fun r hr => binary_result_ne a₁ a₂ y f h₁ h₂ hy W hr

theorem reshape_step {x y : Ref sig .tc} {he : x.ty.elt = y.ty.elt} {hn : x.ty.shape.ShapeCasts y.ty.shape} {hx hy}
    {rest : List (HloOp τ sig (Elt F))} {W : Valuation τ sig (Elt F)} {b : DevRef τ sig} {v : b.ty.Contents (Elt F)}
    {vx : x.ty.Contents (Elt F)} (ex : W (x : DevRef τ sig) = vx)
    (h : ∀ W' : Valuation τ sig (Elt F),
      W' (y : DevRef τ sig) = (fun i => he ▸ shapeCast y.ty.shape vx hn i) →
      (∀ r : Ref sig .tc, r ≠ y → W' (r : DevRef τ sig) = W (r : DevRef τ sig)) → after rest W' b = v) :
    after (reshape x y he hn hx hy :: rest) W b = v := by
  subst ex
  rw [after_cons]
  exact h _ (reshape_result x y he hn hx hy W) fun r hr => reshape_result_ne x y he hn hx hy W hr

/-! The same for an operation of the called function, which is stated over typed references: its function takes and
gives contents at the values' types, moved to and from the buffers' own types along the references' type equations.
Moving a value to the buffer's type and back gives the value (`ofBuf_toBuf`), so the facts are stated with the
contents of `W` and `W'` moved to the values' types, and the operation's function meets the operands' values bare. -/

theorem ofBuf_toBuf {T : BufTy} (x : TRef sig T) (u : T.Contents (Elt F)) : x.ofBuf (x.toBuf u) = u := by
  obtain ⟨r, rfl, _, _⟩ := x
  rfl

theorem tnullary_step {Ty : BufTy} {y : TRef sig Ty} {v₀ : Ty.Contents (Elt F)} {rest : List (HloOp τ sig (Elt F))} {W : Valuation τ sig (Elt F)} {b : DevRef τ sig} {v : b.ty.Contents (Elt F)}
    (h : ∀ W' : Valuation τ sig (Elt F), y.ofBuf (W' (y.ref : DevRef τ sig)) = v₀ →
      (∀ r : Ref sig .tc, r ≠ y.ref → W' (r : DevRef τ sig) = W (r : DevRef τ sig)) → after rest W' b = v) :
    after (TRef.nullary y v₀ :: rest) W b = v := by
  rw [after_cons]
  refine h _ ?_ fun r hr => nullary_result_ne y.ref _ y.dev W hr
  exact (congrArg y.ofBuf (nullary_result y.ref _ y.dev W)).trans (ofBuf_toBuf y _)

theorem tunary_step {Tx Ty : BufTy} {x : TRef sig Tx} {y : TRef sig Ty} {f : Tx.Contents (Elt F) → Ty.Contents (Elt F)}
    {rest : List (HloOp τ sig (Elt F))} {W : Valuation τ sig (Elt F)} {b : DevRef τ sig} {v : b.ty.Contents (Elt F)}
    {vx : Tx.Contents (Elt F)} (ex : x.ofBuf (W (x.ref : DevRef τ sig)) = vx)
    (h : ∀ W' : Valuation τ sig (Elt F), y.ofBuf (W' (y.ref : DevRef τ sig)) = f vx →
      (∀ r : Ref sig .tc, r ≠ y.ref → W' (r : DevRef τ sig) = W (r : DevRef τ sig)) → after rest W' b = v) :
    after (TRef.unary x y f :: rest) W b = v := by
  subst ex
  rw [after_cons]
  refine h _ ?_ fun r hr => unary_result_ne x.ref y.ref _ x.dev y.dev W hr
  exact (congrArg y.ofBuf (unary_result x.ref y.ref _ x.dev y.dev W)).trans (ofBuf_toBuf y _)

theorem tbinary_step {T₁ T₂ Ty : BufTy} {a₁ : TRef sig T₁} {a₂ : TRef sig T₂} {y : TRef sig Ty}
    {f : T₁.Contents (Elt F) → T₂.Contents (Elt F) → Ty.Contents (Elt F)} {rest : List (HloOp τ sig (Elt F))} {W : Valuation τ sig (Elt F)} {b : DevRef τ sig} {v : b.ty.Contents (Elt F)}
    {v₁ : T₁.Contents (Elt F)} {v₂ : T₂.Contents (Elt F)}
    (e₁ : a₁.ofBuf (W (a₁.ref : DevRef τ sig)) = v₁) (e₂ : a₂.ofBuf (W (a₂.ref : DevRef τ sig)) = v₂)
    (h : ∀ W' : Valuation τ sig (Elt F), y.ofBuf (W' (y.ref : DevRef τ sig)) = f v₁ v₂ →
      (∀ r : Ref sig .tc, r ≠ y.ref → W' (r : DevRef τ sig) = W (r : DevRef τ sig)) → after rest W' b = v) :
    after (TRef.binary a₁ a₂ y f :: rest) W b = v := by
  subst e₁ e₂
  rw [after_cons]
  refine h _ ?_ fun r hr => binary_result_ne a₁.ref a₂.ref y.ref _ a₁.dev a₂.dev y.dev W hr
  exact (congrArg y.ofBuf (binary_result a₁.ref a₂.ref y.ref _ a₁.dev a₂.dev y.dev W)).trans (ofBuf_toBuf y _)

theorem tternary_step {T₀ T₁ T₂ Ty : BufTy} {a₀ : TRef sig T₀} {a₁ : TRef sig T₁} {a₂ : TRef sig T₂} {y : TRef sig Ty}
    {f : T₀.Contents (Elt F) → T₁.Contents (Elt F) → T₂.Contents (Elt F) → Ty.Contents (Elt F)} {rest : List (HloOp τ sig (Elt F))} {W : Valuation τ sig (Elt F)} {b : DevRef τ sig} {v : b.ty.Contents (Elt F)}
    {v₀ : T₀.Contents (Elt F)} {v₁ : T₁.Contents (Elt F)} {v₂ : T₂.Contents (Elt F)}
    (e₀ : a₀.ofBuf (W (a₀.ref : DevRef τ sig)) = v₀) (e₁ : a₁.ofBuf (W (a₁.ref : DevRef τ sig)) = v₁)
    (e₂ : a₂.ofBuf (W (a₂.ref : DevRef τ sig)) = v₂)
    (h : ∀ W' : Valuation τ sig (Elt F), y.ofBuf (W' (y.ref : DevRef τ sig)) = f v₀ v₁ v₂ →
      (∀ r : Ref sig .tc, r ≠ y.ref → W' (r : DevRef τ sig) = W (r : DevRef τ sig)) → after rest W' b = v) :
    after (TRef.ternary a₀ a₁ a₂ y f :: rest) W b = v := by
  subst e₀ e₁ e₂
  rw [after_cons]
  refine h _ ?_ fun r hr => ternary_result_ne a₁.ref a₂.ref a₀.ref y.ref _ a₀.dev a₁.dev a₂.dev y.dev W hr
  exact (congrArg y.ofBuf (ternary_result a₀.ref a₁.ref a₂.ref y.ref _ a₀.dev a₁.dev a₂.dev y.dev W)).trans
    (ofBuf_toBuf y _)

/-! ### The line, stretch by stretch

Each lemma below runs one stretch of the line from contents `W` known only at the buffers a later operation still
reads: there `W` holds the stage of the arguments that Proof/RefRead.lean names. One operation at a time, the result
buffer takes the operation's function of the operands' stages, which is the next stage by that stage's definition, and
the other live buffers keep theirs, since the operation writes its own result buffer only. The lemmas are stated last
stretch first, each ending in the one for the stretch after it. -/

/-- Operations 31 to 37, from contents that hold the first and third arguments, the gather's indices and the range
    test's conjunction: the conjunction is reduced along its unit axis, the table is gathered, the filler is broadcast,
    the select picks between them, and the product with the first argument is the last stage. -/
theorem tail30 (x0 : (⟨S4x2048x4096, .f32⟩ : BufTy).Contents (Elt F)) (x1 : (⟨S512x4096, .i32⟩ : BufTy).Contents (Elt F))
    (x2 : (⟨S4096x16, .f32⟩ : BufTy).Contents (Elt F)) (W : Valuation τ sig (Elt F))
    (ha0 : W (main_arg0 : DevRef τ sig) = x0) (ha2 : W (main_arg2 : DevRef τ sig) = x2)
    (h5 : W (main_call0_v5 : DevRef τ sig) = val_main_call0_v5 (F := F) x1)
    (h11 : W (main_call0_v11 : DevRef τ sig) = val_main_call0_v11 (F := F) x1) :
    after ((ops (F := F)).drop 30) W (main_v13 : DevRef τ sig) = val_main_v13 (F := F) x0 x1 x2 := by
  -- the reduction's initial value, true
  refine tnullary_step fun W1 e k => ?_
  have hc3 : W1 (main_call0_c_3 : DevRef τ sig) = val_main_call0_c_3 (F := F) := e
  have ha0 := (k _ (by decide)).trans ha0
  have ha2 := (k _ (by decide)).trans ha2
  have h5 := (k _ (by decide)).trans h5
  have h11 := (k _ (by decide)).trans h11
  -- the conjunction reduced along its unit axis
  refine tbinary_step (by exact h11) (by exact hc3) fun W2 e k => ?_
  have h12 : W2 (main_call0_v12 : DevRef τ sig) = val_main_call0_v12 (F := F) x1 := e
  have ha0 := (k _ (by decide)).trans ha0
  have ha2 := (k _ (by decide)).trans ha2
  have h5 := (k _ (by decide)).trans h5
  -- the table gathered at the indices
  refine tbinary_step (by exact ha2) (by exact h5) fun W3 e k => ?_
  have h13 : W3 (main_call0_v13 : DevRef τ sig) = val_main_call0_v13 (F := F) x1 x2 := e
  have ha0 := (k _ (by decide)).trans ha0
  have h12 := (k _ (by decide)).trans h12
  -- the filler
  refine tnullary_step fun W4 e k => ?_
  have hcst : W4 (main_call0_cst : DevRef τ sig) = val_main_call0_cst (F := F) := e
  have ha0 := (k _ (by decide)).trans ha0
  have h12 := (k _ (by decide)).trans h12
  have h13 := (k _ (by decide)).trans h13
  -- the filler broadcast
  refine tunary_step (by exact hcst) fun W5 e k => ?_
  have h14 : W5 (main_call0_v14 : DevRef τ sig) = val_main_call0_v14 (F := F) := e
  have ha0 := (k _ (by decide)).trans ha0
  have h12 := (k _ (by decide)).trans h12
  have h13 := (k _ (by decide)).trans h13
  -- the select: the dequantized weights
  refine tternary_step (by exact h12) (by exact h13) (by exact h14) fun W6 e k => ?_
  have hm12 : W6 (main_v12 : DevRef τ sig) = val_main_v12 (F := F) x1 x2 := e
  have ha0 := (k _ (by decide)).trans ha0
  -- the product with the first argument
  refine binary_step (by exact ha0) (by exact hm12) fun W7 e k => ?_
  exact e

/-- Operations 23 to 30, from contents that hold the first and third arguments and the gather's indices: the indices
    are tested against 0 from below and against 15 from above, and the two tests are conjoined. -/
theorem tail22 (x0 : (⟨S4x2048x4096, .f32⟩ : BufTy).Contents (Elt F)) (x1 : (⟨S512x4096, .i32⟩ : BufTy).Contents (Elt F))
    (x2 : (⟨S4096x16, .f32⟩ : BufTy).Contents (Elt F)) (W : Valuation τ sig (Elt F))
    (ha0 : W (main_arg0 : DevRef τ sig) = x0) (ha2 : W (main_arg2 : DevRef τ sig) = x2)
    (h5 : W (main_call0_v5 : DevRef τ sig) = val_main_call0_v5 (F := F) x1) :
    after ((ops (F := F)).drop 22) W (main_v13 : DevRef τ sig) = val_main_v13 (F := F) x0 x1 x2 := by
  -- the upper bound, 15
  refine tnullary_step fun W1 e k => ?_
  have hc1 : W1 (main_call0_c_1 : DevRef τ sig) = val_main_call0_c_1 (F := F) := e
  have ha0 := (k _ (by decide)).trans ha0
  have ha2 := (k _ (by decide)).trans ha2
  have h5 := (k _ (by decide)).trans h5
  -- the lower bound, 0
  refine tnullary_step fun W2 e k => ?_
  have hc2 : W2 (main_call0_c_2 : DevRef τ sig) = val_main_call0_c_2 (F := F) := e
  have ha0 := (k _ (by decide)).trans ha0
  have ha2 := (k _ (by decide)).trans ha2
  have h5 := (k _ (by decide)).trans h5
  have hc1 := (k _ (by decide)).trans hc1
  -- the lower bound broadcast
  refine tunary_step (by exact hc2) fun W3 e k => ?_
  have h6 : W3 (main_call0_v6 : DevRef τ sig) = val_main_call0_v6 (F := F) := e
  have ha0 := (k _ (by decide)).trans ha0
  have ha2 := (k _ (by decide)).trans ha2
  have h5 := (k _ (by decide)).trans h5
  have hc1 := (k _ (by decide)).trans hc1
  -- the test from below
  refine tbinary_step (by exact h5) (by exact h6) fun W4 e k => ?_
  have h7 : W4 (main_call0_v7 : DevRef τ sig) = val_main_call0_v7 (F := F) x1 := e
  have ha0 := (k _ (by decide)).trans ha0
  have ha2 := (k _ (by decide)).trans ha2
  have h5 := (k _ (by decide)).trans h5
  have hc1 := (k _ (by decide)).trans hc1
  -- the upper bound at rank three
  refine tunary_step (by exact hc1) fun W5 e k => ?_
  have h8 : W5 (main_call0_v8 : DevRef τ sig) = val_main_call0_v8 (F := F) := e
  have ha0 := (k _ (by decide)).trans ha0
  have ha2 := (k _ (by decide)).trans ha2
  have h5 := (k _ (by decide)).trans h5
  have h7 := (k _ (by decide)).trans h7
  -- the upper bound broadcast
  refine tunary_step (by exact h8) fun W6 e k => ?_
  have h9 : W6 (main_call0_v9 : DevRef τ sig) = val_main_call0_v9 (F := F) := e
  have ha0 := (k _ (by decide)).trans ha0
  have ha2 := (k _ (by decide)).trans ha2
  have h5 := (k _ (by decide)).trans h5
  have h7 := (k _ (by decide)).trans h7
  -- the test from above
  refine tbinary_step (by exact h5) (by exact h9) fun W7 e k => ?_
  have h10 : W7 (main_call0_v10 : DevRef τ sig) = val_main_call0_v10 (F := F) x1 := e
  have ha0 := (k _ (by decide)).trans ha0
  have ha2 := (k _ (by decide)).trans ha2
  have h5 := (k _ (by decide)).trans h5
  have h7 := (k _ (by decide)).trans h7
  -- the two tests conjoined
  refine tbinary_step (by exact h7) (by exact h10) fun W8 e k => ?_
  have h11 : W8 (main_call0_v11 : DevRef τ sig) = val_main_call0_v11 (F := F) x1 := e
  have ha0 := (k _ (by decide)).trans ha0
  have ha2 := (k _ (by decide)).trans ha2
  have h5 := (k _ (by decide)).trans h5
  exact tail30 x0 x1 x2 _ ha0 ha2 h5 h11

/-- Operations 15 to 22, from contents that hold the first and third arguments and the nibbles: a nibble below zero is
    moved up by sixteen, and the result is reshaped into the gather's indices. -/
theorem tail14 (x0 : (⟨S4x2048x4096, .f32⟩ : BufTy).Contents (Elt F)) (x1 : (⟨S512x4096, .i32⟩ : BufTy).Contents (Elt F))
    (x2 : (⟨S4096x16, .f32⟩ : BufTy).Contents (Elt F)) (W : Valuation τ sig (Elt F))
    (ha0 : W (main_arg0 : DevRef τ sig) = x0) (ha2 : W (main_arg2 : DevRef τ sig) = x2)
    (hv11 : W (main_v11 : DevRef τ sig) = val_main_v11 (F := F) x1) :
    after ((ops (F := F)).drop 14) W (main_v13 : DevRef τ sig) = val_main_v13 (F := F) x0 x1 x2 := by
  -- zero
  refine tnullary_step fun W1 e k => ?_
  have hcc : W1 (main_call0_c : DevRef τ sig) = val_main_call0_c (F := F) := e
  have ha0 := (k _ (by decide)).trans ha0
  have ha2 := (k _ (by decide)).trans ha2
  have hv11 := (k _ (by decide)).trans hv11
  -- zero broadcast
  refine tunary_step (by exact hcc) fun W2 e k => ?_
  have hcv0 : W2 (main_call0_v0 : DevRef τ sig) = val_main_call0_v0 (F := F) := e
  have ha0 := (k _ (by decide)).trans ha0
  have ha2 := (k _ (by decide)).trans ha2
  have hv11 := (k _ (by decide)).trans hv11
  -- the nibble is below zero
  refine tbinary_step (by exact hv11) (by exact hcv0) fun W3 e k => ?_
  have hcv1 : W3 (main_call0_v1 : DevRef τ sig) = val_main_call0_v1 (F := F) x1 := e
  have ha0 := (k _ (by decide)).trans ha0
  have ha2 := (k _ (by decide)).trans ha2
  have hv11 := (k _ (by decide)).trans hv11
  -- sixteen
  refine tnullary_step fun W4 e k => ?_
  have hcc0 : W4 (main_call0_c_0 : DevRef τ sig) = val_main_call0_c_0 (F := F) := e
  have ha0 := (k _ (by decide)).trans ha0
  have ha2 := (k _ (by decide)).trans ha2
  have hv11 := (k _ (by decide)).trans hv11
  have hcv1 := (k _ (by decide)).trans hcv1
  -- sixteen broadcast
  refine tunary_step (by exact hcc0) fun W5 e k => ?_
  have hcv2 : W5 (main_call0_v2 : DevRef τ sig) = val_main_call0_v2 (F := F) := e
  have ha0 := (k _ (by decide)).trans ha0
  have ha2 := (k _ (by decide)).trans ha2
  have hv11 := (k _ (by decide)).trans hv11
  have hcv1 := (k _ (by decide)).trans hcv1
  -- the nibble plus sixteen
  refine tbinary_step (by exact hv11) (by exact hcv2) fun W6 e k => ?_
  have hcv3 : W6 (main_call0_v3 : DevRef τ sig) = val_main_call0_v3 (F := F) x1 := e
  have ha0 := (k _ (by decide)).trans ha0
  have ha2 := (k _ (by decide)).trans ha2
  have hv11 := (k _ (by decide)).trans hv11
  have hcv1 := (k _ (by decide)).trans hcv1
  -- the select between them
  refine tternary_step (by exact hcv1) (by exact hcv3) (by exact hv11) fun W7 e k => ?_
  have hcv4 : W7 (main_call0_v4 : DevRef τ sig) = val_main_call0_v4 (F := F) x1 := e
  have ha0 := (k _ (by decide)).trans ha0
  have ha2 := (k _ (by decide)).trans ha2
  -- reshaped with a trailing unit axis
  refine reshape_step (by exact hcv4) fun W8 e k => ?_
  have h5 : W8 (main_call0_v5 : DevRef τ sig) = val_main_call0_v5 (F := F) x1 := e
  have ha0 := (k _ (by decide)).trans ha0
  have ha2 := (k _ (by decide)).trans ha2
  exact tail22 x0 x1 x2 _ ha0 ha2 h5

/-- Operations 6 to 14, from contents that hold the first and third arguments, the transposed words and the eight shift
    amounts: words and shifts are broadcast against each other, each word is shifted right by each amount and masked to
    four bits, and the nibbles are reshaped to the weight matrix's shape. -/
theorem tail5 (x0 : (⟨S4x2048x4096, .f32⟩ : BufTy).Contents (Elt F)) (x1 : (⟨S512x4096, .i32⟩ : BufTy).Contents (Elt F))
    (x2 : (⟨S4096x16, .f32⟩ : BufTy).Contents (Elt F)) (W : Valuation τ sig (Elt F))
    (ha0 : W (main_arg0 : DevRef τ sig) = x0) (ha2 : W (main_arg2 : DevRef τ sig) = x2)
    (hv0 : W (main_v0 : DevRef τ sig) = val_main_v0 (F := F) x1) (hv3 : W (main_v3 : DevRef τ sig) = val_main_v3 (F := F)) :
    after ((ops (F := F)).drop 5) W (main_v13 : DevRef τ sig) = val_main_v13 (F := F) x0 x1 x2 := by
  -- the words with a trailing unit axis
  refine unary_step (by exact hv0) fun W1 e k => ?_
  have hv4 : W1 (main_v4 : DevRef τ sig) = val_main_v4 (F := F) x1 := e
  have ha0 := (k _ (by decide)).trans ha0
  have ha2 := (k _ (by decide)).trans ha2
  have hv3 := (k _ (by decide)).trans hv3
  -- the shifts with two leading unit axes
  refine unary_step (by exact hv3) fun W2 e k => ?_
  have hv5 : W2 (main_v5 : DevRef τ sig) = val_main_v5 (F := F) := e
  have ha0 := (k _ (by decide)).trans ha0
  have ha2 := (k _ (by decide)).trans ha2
  have hv4 := (k _ (by decide)).trans hv4
  -- the words broadcast along the shifts
  refine unary_step (by exact hv4) fun W3 e k => ?_
  have hv6 : W3 (main_v6 : DevRef τ sig) = val_main_v6 (F := F) x1 := e
  have ha0 := (k _ (by decide)).trans ha0
  have ha2 := (k _ (by decide)).trans ha2
  have hv5 := (k _ (by decide)).trans hv5
  -- the shifts broadcast along the words
  refine unary_step (by exact hv5) fun W4 e k => ?_
  have hv7 : W4 (main_v7 : DevRef τ sig) = val_main_v7 (F := F) := e
  have ha0 := (k _ (by decide)).trans ha0
  have ha2 := (k _ (by decide)).trans ha2
  have hv6 := (k _ (by decide)).trans hv6
  -- the arithmetic shift right
  refine binary_step (by exact hv6) (by exact hv7) fun W5 e k => ?_
  have hv8 : W5 (main_v8 : DevRef τ sig) = val_main_v8 (F := F) x1 := e
  have ha0 := (k _ (by decide)).trans ha0
  have ha2 := (k _ (by decide)).trans ha2
  -- the mask, 15
  refine nullary_step fun W6 e k => ?_
  have hc_0 : W6 (main_c_0 : DevRef τ sig) = val_main_c_0 (F := F) := e
  have ha0 := (k _ (by decide)).trans ha0
  have ha2 := (k _ (by decide)).trans ha2
  have hv8 := (k _ (by decide)).trans hv8
  -- the mask broadcast
  refine unary_step (by exact hc_0) fun W7 e k => ?_
  have hv9 : W7 (main_v9 : DevRef τ sig) = val_main_v9 (F := F) := e
  have ha0 := (k _ (by decide)).trans ha0
  have ha2 := (k _ (by decide)).trans ha2
  have hv8 := (k _ (by decide)).trans hv8
  -- the nibbles
  refine binary_step (by exact hv8) (by exact hv9) fun W8 e k => ?_
  have hv10 : W8 (main_v10 : DevRef τ sig) = val_main_v10 (F := F) x1 := e
  have ha0 := (k _ (by decide)).trans ha0
  have ha2 := (k _ (by decide)).trans ha2
  -- reshaped to the weight matrix's shape
  refine reshape_step (by exact hv10) fun W9 e k => ?_
  have hv11 : W9 (main_v11 : DevRef τ sig) = val_main_v11 (F := F) x1 := e
  have ha0 := (k _ (by decide)).trans ha0
  have ha2 := (k _ (by decide)).trans ha2
  exact tail14 x0 x1 x2 _ ha0 ha2 hv11

/-- Operations 1 to 5 and with them the whole line, from contents that hold the three arguments: the packed words are
    transposed and the eight shift amounts 0, 4, …, 28 are made. -/
theorem tail0 (x0 : (⟨S4x2048x4096, .f32⟩ : BufTy).Contents (Elt F)) (x1 : (⟨S512x4096, .i32⟩ : BufTy).Contents (Elt F))
    (x2 : (⟨S4096x16, .f32⟩ : BufTy).Contents (Elt F)) (W : Valuation τ sig (Elt F))
    (ha0 : W (main_arg0 : DevRef τ sig) = x0) (ha1 : W (main_arg1 : DevRef τ sig) = x1) (ha2 : W (main_arg2 : DevRef τ sig) = x2) :
    after (ops (F := F)) W (main_v13 : DevRef τ sig) = val_main_v13 (F := F) x0 x1 x2 := by
  -- the packed words transposed
  refine unary_step (by exact ha1) fun W1 e k => ?_
  have hv0 : W1 (main_v0 : DevRef τ sig) = val_main_v0 (F := F) x1 := e
  have ha0 := (k _ (by decide)).trans ha0
  have ha2 := (k _ (by decide)).trans ha2
  -- 0, 1, …, 7
  refine nullary_step fun W2 e k => ?_
  have hv1 : W2 (main_v1 : DevRef τ sig) = val_main_v1 (F := F) := e
  have ha0 := (k _ (by decide)).trans ha0
  have ha2 := (k _ (by decide)).trans ha2
  have hv0 := (k _ (by decide)).trans hv0
  -- four
  refine nullary_step fun W3 e k => ?_
  have hc : W3 (main_c : DevRef τ sig) = val_main_c (F := F) := e
  have ha0 := (k _ (by decide)).trans ha0
  have ha2 := (k _ (by decide)).trans ha2
  have hv0 := (k _ (by decide)).trans hv0
  have hv1 := (k _ (by decide)).trans hv1
  -- four broadcast
  refine unary_step (by exact hc) fun W4 e k => ?_
  have hv2 : W4 (main_v2 : DevRef τ sig) = val_main_v2 (F := F) := e
  have ha0 := (k _ (by decide)).trans ha0
  have ha2 := (k _ (by decide)).trans ha2
  have hv0 := (k _ (by decide)).trans hv0
  have hv1 := (k _ (by decide)).trans hv1
  -- the shift amounts
  refine binary_step (by exact hv1) (by exact hv2) fun W5 e k => ?_
  have hv3 : W5 (main_v3 : DevRef τ sig) = val_main_v3 (F := F) := e
  have ha0 := (k _ (by decide)).trans ha0
  have ha2 := (k _ (by decide)).trans ha2
  have hv0 := (k _ (by decide)).trans hv0
  exact tail5 x0 x1 x2 _ ha0 ha2 hv0 hv3

/-- After the 37 operations the result buffer holds the last stage of the three arguments. -/
theorem result_stage (m : (ℓ : Loc nD τ sig) → Buf (Elt F) ℓ) (c : Dev nD) :
    after (ops (F := F)) (launchContents m c) (Proc.devRef .tc main_v13)
      = Cert.ReferenceIdeal.ReadP.val_main_v13 (F := F) (m ((c.tc : Thread nD τ).loc main_arg0))
          (m ((c.tc : Thread nD τ).loc main_arg1)) (m ((c.tc : Thread nD τ).loc main_arg2)) := by
  exact tail0 _ _ _ (launchContents m c) rfl rfl rfl

/-- On every device, from any memory with zero counters: every weakly fair execution of @main terminates with the
    result at the last stage of the arguments and the arguments unchanged (no operation writes an argument). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = Cert.ReferenceIdeal.ReadP.val_main_v13 (F := F) (m ((c.tc : Thread nD τ).loc main_arg0))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v13).trans (result_stage m c),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RunH

end
-- ==== Proof.RefValue.lean ====
/-
  The reference's value. jnp's reference unpacks the eight 4-bit codes of every word with an ARITHMETIC shift and the
  mask 15, reshapes them to `idx[n, k]` with `k = 8 j + s`, gathers `weights[n, k] = lut[n, idx[n, k]]` along the table's
  second axis (the index is a code, so neither jnp's wrap of a negative index nor its out-of-range fill applies), and
  contracts `input[b, s, k]` with `weights[n, k]` over `k`. So its stages read: `weights[n, k] = W[k, n]` and
  `out[b, s, n] = ∑ k, input[b, s, k] * W[k, n]`.
-/
import proofs.«401050_j87978110091557_3_alg».proof.Proof.RefRead
import proofs.«401050_j87978110091557_3_alg».proof.Proof.Spec
import Idealize.ShloMosaic.Lib.Pipeline.Value
import Idealize.ShloMosaic.Lib.ValueIdx
import Idealize.ShloMosaic.Lib.ReduceAll
import Idealize.ShloMosaic.PureOps.Ideal.Laws

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen Cert.ReferenceIdeal.ReadP Cert.LutGemm

/-! ## Signed compares of a word below 16 -/

/-- A word below 16 reads the same signed and unsigned. -/
theorem toInt_of_lt_sixteen {c : BitVec 32} (h : c.toNat < 16) : c.toInt = (c.toNat : Int) :=
  BitVec.toInt_eq_toNat_of_lt (by omega)

/-- It is not negative: the signed `c < 0` is the bit 0. -/
theorem slt_zero_of_lt_sixteen {c : BitVec 32} (h : c.toNat < 16) : IntOp.cmpi .slt c 0#32 = 0#1 := by
  refine eq_zero_of_ne_one fun e => ?_
  have hlt := IntOp.cmpi_slt.1 e
  rw [toInt_of_lt_sixteen h, show (0#32 : BitVec 32).toInt = 0 from by decide] at hlt
  omega

/-- The signed `c ≥ 0` is the bit 1. -/
theorem sge_zero_of_lt_sixteen {c : BitVec 32} (h : c.toNat < 16) : IntOp.cmpi .sge c 0#32 = 1#1 := by
  rw [IntOp.cmpi_sge, toInt_of_lt_sixteen h, show (0#32 : BitVec 32).toInt = 0 from by decide]
  omega

/-- The signed `c ≤ 15` is the bit 1. -/
theorem sle_fifteen_of_lt_sixteen {c : BitVec 32} (h : c.toNat < 16) : IntOp.cmpi .sle c 15#32 = 1#1 := by
  rw [IntOp.cmpi_sle, toInt_of_lt_sixteen h, show (15#32 : BitVec 32).toInt = 15 from by decide]
  omega

/-- Read signed and clamped into `[0, 15]`, a word below 16 is itself. -/
theorem clamp_of_lt_sixteen {c : BitVec 32} (h : c.toNat < 16) : min c.toInt.toNat 15 = c.toNat := by
  rw [toInt_of_lt_sixteen h]
  omega

/-! ## The index array: code `k mod 8` of word `qweight[k / 8, n]` -/

/-- The reshape `[4096, 512, 8] → [4096, 4096]` read backwards: `(n, k)` comes from `(n, k / 8, k mod 8)`. -/
theorem unpack_idx (n k : Fin 4096) : idx_main_v11 (ix2 n k) = ix3 n (wordRow k) (wordField k) := by
  funext a
  refine Fin.ext ?_
  have hn := n.isLt
  have hk := k.isLt
  match a with
  | ⟨0, _⟩ => show (n.val * 4096 + k.val) / 4096 = n.val; omega
  | ⟨1, _⟩ => show (n.val * 4096 + k.val) / 8 % 512 = k.val / 8; omega
  | ⟨2, _⟩ => show (n.val * 4096 + k.val) % 8 = k.val % 8; omega

/-- The reshape `[4096, 4096] → [4096, 4096, 1]` read backwards: `(n, k, 0)` comes from `(n, k)`. -/
theorem squeeze_idx (n k : Fin 4096) (z : Fin 1) : idx_main_call0_v5 (ix3 n k z) = ix2 n k := by
  funext a
  refine Fin.ext ?_
  have hn := n.isLt
  have hk := k.isLt
  have hz := z.isLt
  match a with
  | ⟨0, _⟩ => show ((n.val * 4096 + k.val) * 1 + z.val) / 4096 = n.val; omega
  | ⟨1, _⟩ => show ((n.val * 4096 + k.val) * 1 + z.val) % 4096 = k.val; omega

/-- The broadcast words at `(n, r, f)`: the transposed `qweight[r, n]`. -/
theorem word_apply (x1 : (⟨S512x4096, .i32⟩ : BufTy).Contents (Elt Ideal)) (n : Fin 4096) (r : Fin 512) (f : Fin 8) :
    val_main_v6 (F := Ideal) x1 (ix3 n r f) = x1 (ix2 r n) := by
  rw [val_main_v6_apply, val_main_v4_apply, val_main_v0_apply]
  refine congrArg x1 (funext fun a => ?_)
  match a with
  | ⟨0, _⟩ => rfl
  | ⟨1, _⟩ => rfl

/-- The broadcast shift amounts at `(n, r, f)`: `f * 4`. -/
theorem amount_apply (n : Fin 4096) (r : Fin 512) (f : Fin 8) :
    val_main_v7 (F := Ideal) (ix3 n r f) = IntOp.muli (BitVec.ofNat 32 f.val) 4#32 := by
  rw [val_main_v7_apply, val_main_v5_apply, val_main_v3_apply, val_main_v1_apply, val_main_v2_apply, val_main_c_apply] <;> rfl

/-- The unpacked codes at `(n, k)`: field `k mod 8` of the word `qweight[k / 8, n]`. -/
theorem code_apply (x1 : (⟨S512x4096, .i32⟩ : BufTy).Contents (Elt Ideal)) (n k : Fin 4096) :
    val_main_v11 (F := Ideal) x1 (ix2 n k) = nibWord (x1 (ix2 (wordRow k) n)) (wordField k) := by
  rw [val_main_v11_apply, unpack_idx, val_main_v10_apply, val_main_v8_apply, val_main_v9_apply, val_main_c_0_apply,
    word_apply, amount_apply]
  exact shrsi_andi_eq_nibWord _ _

/-- A code is not negative, so the wrap of a negative index keeps it: the start indices at `(n, k, 0)` are the code. -/
theorem index_apply (x1 : (⟨S512x4096, .i32⟩ : BufTy).Contents (Elt Ideal)) (n k : Fin 4096) (z : Fin 1) :
    val_main_call0_v5 (F := Ideal) x1 (ix3 n k z) = nibWord (x1 (ix2 (wordRow k) n)) (wordField k) := by
  rw [val_main_call0_v5_apply, squeeze_idx, val_main_call0_v4_apply, val_main_call0_v1_apply, val_main_call0_v0_apply,
    val_main_call0_c_apply, code_apply, slt_zero_of_lt_sixteen (nibWord_lt _ _), select_zero]

/-! ## The in-range mask is true everywhere -/

/-- `0 ≤ index ≤ 15` holds at every index of the mask. -/
theorem mask_apply (x1 : (⟨S512x4096, .i32⟩ : BufTy).Contents (Elt Ideal)) (i : S4096x4096x1.Idx) :
    val_main_call0_v11 (F := Ideal) x1 i = 1#1 := by
  obtain ⟨n, k, z, rfl⟩ : ∃ (n k : Fin 4096) (z : Fin 1), i = ix3 n k z := ⟨i 0, i 1, i 2, eq_ix3 i⟩
  rw [val_main_call0_v11_apply, IntOp.andi_eq_one]
  constructor
  · rw [val_main_call0_v7_apply, val_main_call0_v6_apply, val_main_call0_c_2_apply, index_apply]
    exact sge_zero_of_lt_sixteen (nibWord_lt _ _)
  · rw [val_main_call0_v10_apply, val_main_call0_v9_apply, val_main_call0_v8_apply, val_main_call0_c_1_apply, index_apply]
    exact sle_fifteen_of_lt_sixteen (nibWord_lt _ _)

/-- A left fold by `and` from 1 over words that are all 1 is 1. -/
theorem foldl_andi_of_all_one {ι : Type} (f : ι → BitVec 1) (hf : ∀ a, f a = 1#1) :
    ∀ l : List ι, l.foldl (fun r a => IntOp.andi r (f a)) 1#1 = 1#1
  | [] => rfl
  | a :: l => by
    rw [List.foldl_cons, hf a, show IntOp.andi (1#1 : BitVec 1) 1#1 = 1#1 from by decide]
    exact foldl_andi_of_all_one f hf l

/-- A reduce by `and` from 1 of an array that is 1 everywhere is 1 everywhere. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_of_all_one x hx _

/-- The reduced mask is true at every `(n, k)`. -/
theorem inRange_apply (x1 : (⟨S512x4096, .i32⟩ : BufTy).Contents (Elt Ideal)) (i : S4096x4096.Idx) :
    val_main_call0_v12 (F := Ideal) x1 i = 1#1 := by
  unfold val_main_call0_v12
  exact reduce_andi_of_all_one _ _ _ _ (mask_apply x1) (fun _ => rfl) i

/-! ## The gather along the table's second axis, batched over its first -/

/-- On the batching axis 0 the operand coordinate of result `(n, k)` is `n`: no start, no offset. -/
theorem gather_axis0 {w : Nat} (idx : IVec S4096x4096x1 w) (n k : Fin 4096) :
    (gather_S4096x16_S4096x4096x1_S4096x4096_n_1_0_0_1_2_11.operandIdx (ix2 n k) idx 0).val = n.val := by
  show gather_S4096x16_S4096x4096x1_S4096x4096_n_1_0_0_1_2_11.start (ix2 n k) idx 0
    + gather_S4096x16_S4096x4096x1_S4096x4096_n_1_0_0_1_2_11.batchCoord (ix2 n k) 0
    + gather_S4096x16_S4096x4096x1_S4096x4096_n_1_0_0_1_2_11.offCoord (ix2 n k) 0 = n.val
  have hb : (0 : Fin S4096x16.rank) ∈ gather_S4096x16_S4096x4096x1_S4096x4096_n_1_0_0_1_2_11.operandBatchingDims :=
    List.mem_singleton.mpr rfl
  rw [GatherDims.start_batching _ _ _ _ hb,
    GatherDims.offCoord_eq_zero _ _ _ (fun h => ((GatherDims.mem_sKept _ _).mp h).2 hb), Nat.zero_add, Nat.add_zero]
  unfold GatherDims.batchCoord
  rw [dif_pos hb]
  rfl

/-- On the collapsed axis 1 it is the start index at `(n, k, 0)`, read signed and clamped into `[0, 15]`:
    no batching coordinate, no offset. -/
theorem gather_axis1 {w : Nat} (idx : IVec S4096x4096x1 w) (n k : Fin 4096) :
    (gather_S4096x16_S4096x4096x1_S4096x4096_n_1_0_0_1_2_11.operandIdx (ix2 n k) idx 1).val
      = min (idx (ix3 n k 0)).toInt.toNat 15 := by
  show gather_S4096x16_S4096x4096x1_S4096x4096_n_1_0_0_1_2_11.start (ix2 n k) idx 1
    + gather_S4096x16_S4096x4096x1_S4096x4096_n_1_0_0_1_2_11.batchCoord (ix2 n k) 1
    + gather_S4096x16_S4096x4096x1_S4096x4096_n_1_0_0_1_2_11.offCoord (ix2 n k) 1 = _
  have hm : (1 : Fin S4096x16.rank) ∈ gather_S4096x16_S4096x4096x1_S4096x4096_n_1_0_0_1_2_11.startIndexMap :=
    List.mem_singleton.mpr rfl
  have hc : (1 : Fin S4096x16.rank) ∈ gather_S4096x16_S4096x4096x1_S4096x4096_n_1_0_0_1_2_11.collapsedSliceDims :=
    List.mem_singleton.mpr rfl
  rw [GatherDims.batchCoord_eq_zero _ _ _ (fun h => absurd (List.mem_singleton.mp h) (by decide)),
    GatherDims.offCoord_eq_zero _ _ _ (fun h => ((GatherDims.mem_sKept _ _).mp h).1 hc), Nat.add_zero]
  unfold GatherDims.start
  rw [dif_pos hm]
  have hsi : gather_S4096x16_S4096x4096x1_S4096x4096_n_1_0_0_1_2_11.siIdx (ix2 n k)
      ⟨List.idxOf (1 : Fin S4096x16.rank) gather_S4096x16_S4096x4096x1_S4096x4096_n_1_0_0_1_2_11.startIndexMap,
        List.idxOf_lt_length_iff.2 hm⟩ = ix3 n k 0 := by
    funext b
    refine Fin.ext ?_
    match b with
    | ⟨0, _⟩ => rfl
    | ⟨1, _⟩ => rfl
    | ⟨2, _⟩ => rfl
  rw [hsi]
  rfl

/-- THE GATHER READ AT `(n, k)`: row `n` of the table at the start index `idx[n, k, 0]`, read signed and clamped
    into `[0, 15]`. -/
theorem gather_apply {α : Type} {w : Nat} (x : S4096x16.Idx → α) (idx : IVec S4096x4096x1 w) (n k : Fin 4096) (c : Fin 16)
    (hc : min (idx (ix3 n k 0)).toInt.toNat 15 = c.val) :
    Host.gather gather_S4096x16_S4096x4096x1_S4096x4096_n_1_0_0_1_2_11 x idx (ix2 n k) = x (ix2 n c) := by
  unfold Host.gather
  refine congrArg x (funext fun a => Fin.ext ?_)
  match a with
  | ⟨0, _⟩ => exact gather_axis0 idx n k
  | ⟨1, _⟩ => exact (gather_axis1 idx n k).trans hc

/-- The gathered table entry at `(n, k)` is `W[k, n]`: a code clamps to itself. -/
theorem gathered_apply (x1 : (⟨S512x4096, .i32⟩ : BufTy).Contents (Elt Ideal)) (x2 : (⟨S4096x16, .f32⟩ : BufTy).Contents (Elt Ideal))
    (n k : Fin 4096) : val_main_call0_v13 (F := Ideal) x1 x2 (ix2 n k) = wAt x1 x2 k n := by
  unfold val_main_call0_v13 wAt
  refine gather_apply x2 _ n k _ ?_
  rw [index_apply]
  exact clamp_of_lt_sixteen (nibWord_lt _ _)

/-! ## The two stages -/

/-- The left operand of the contraction at `k`, for result `(b, s, n)`, is `input[b, s, k]`. -/
theorem lhs_idx (b : Fin 4) (s : Fin 2048) (n k : Fin 4096) : lidx_main_v13 (ix3 b s n) k = ix3 b s k :=
  funext fun a => match a with
    | ⟨0, _⟩ => rfl
    | ⟨1, _⟩ => rfl
    | ⟨2, _⟩ => rfl

/-- The right operand is `weights[n, k]`. -/
theorem rhs_idx (b : Fin 4) (s : Fin 2048) (n k : Fin 4096) : ridx_main_v13 (ix3 b s n) k = ix2 n k :=
  funext fun a => match a with
    | ⟨0, _⟩ => rfl
    | ⟨1, _⟩ => rfl

/-- The gathered weights at `(n, k)` are `W[k, n]`. -/
theorem weights_apply (x1 : (⟨S512x4096, .i32⟩ : BufTy).Contents (Elt Ideal)) (x2 : (⟨S4096x16, .f32⟩ : BufTy).Contents (Elt Ideal))
    (n k : Fin 4096) : val_main_v12 (F := Ideal) x1 x2 (ix2 n k) = wAt x1 x2 k n := by
  -- the mask is true, so the select keeps the gathered value, never the fill constant
  rw [val_main_v12_apply, inRange_apply, select_one]
  exact gathered_apply x1 x2 n k

/-- The reference's result at `(b, s, n)` is the whole product there. -/
theorem result_apply (x0 : (⟨S4x2048x4096, .f32⟩ : BufTy).Contents (Elt Ideal)) (x1 : (⟨S512x4096, .i32⟩ : BufTy).Contents (Elt Ideal))
    (x2 : (⟨S4096x16, .f32⟩ : BufTy).Contents (Elt Ideal)) (b : Fin 4) (s : Fin 2048) (n : Fin 4096) :
    val_main_v13 (F := Ideal) x0 x1 x2 (ix3 b s n) = gemmAt x0 x1 x2 b s n := by
  rw [val_main_v13_apply]
  unfold gemmAt
  refine Finset.sum_congr rfl fun k _ => ?_
  rw [lhs_idx, rhs_idx, weights_apply]

end Cert.ReferenceIdeal.RefValue

end
-- ==== Proof.lean ====
/-
  The certificate of a 4-bit look-up-table matrix product. Both programs compute
  `out[b, s, n] = ∑ k, input[b, s, k] * W[k, n]` with `W[k, n] = lut[n, code (k mod 8) of qweight[k / 8, n]]`, a code being
  one of the eight 4-bit fields of a packed word.

  The kernel does it in two regions. The first unpacks every word with a logical shift and the mask 15, picks the table
  entry by a four-level tree of selects on the code's bits, and stores the weights split into a high part `W` and a low
  part `W - W`. The second multiplies in 32 grid points, 8 row tiles by 4 contraction tiles: it resets the output block
  at the first contraction tile and adds `x·W_hi + x·W_lo + (x - x)·W_hi` at each, `x` the flattened input. The reference
  unpacks with an arithmetic shift, gathers the weights along the table's second axis and contracts once.

  At the ideal instance a change of float format is the identity, so the high parts are the values themselves and the
  low parts are `w - w` and `x - x`. These are zero exactly when the entries are finite, which is what the precondition
  says of `input` and `lut`; their products then vanish and the four tiles of 1024 add up to the one sum over 4096
  (addition of extended reals being commutative and associative). The two shifts agree under the mask because an
  arithmetic shift by at most 28 brings sign bits in only above bit 3. A code is between 0 and 15, so the reference's
  wrap of negative indices and its out-of-range fill never apply.

  The three frames: the kernel's two are the generated frame certificates; the reference's is its run with the result
  dropped. `preserves` is the ideal pass's two rewrites `extf (truncf v) ↦ v`, each its rule's statement.
-/
import proofs.«401050_j87978110091557_3_alg».proof.Defs
import proofs.«401050_j87978110091557_3_alg».proof.Proof.Gen.Kernel
import proofs.«401050_j87978110091557_3_alg».proof.Proof.Gen.Kernel.Frame
import proofs.«401050_j87978110091557_3_alg».proof.Proof.Gen.KernelIdeal
import proofs.«401050_j87978110091557_3_alg».proof.Proof.Gen.KernelIdeal.Frame
import proofs.«401050_j87978110091557_3_alg».proof.Proof.Gen.ReferenceIdeal
import proofs.«401050_j87978110091557_3_alg».proof.Proof.Gen.Pre_finite_inputs
import proofs.«401050_j87978110091557_3_alg».proof.Proof.KernelValue
import proofs.«401050_j87978110091557_3_alg».proof.Proof.RefRun
import proofs.«401050_j87978110091557_3_alg».proof.Proof.RefValue
import Idealize.ShloMosaic.Adequacy
import Idealize.ShloMosaic.Init

noncomputable section

namespace Cert.Proof

open Idealize.ShloMosaic Idealize.ShloMosaic.TcCoe Idealize.SL.Sem
open Idealize.ShloMosaic.ValueIdx

/-- The reference's last stage of the kernel's arguments is the kernel's result: both are the whole product, index by
    index. -/
theorem reference_eq_result (m : (ℓ : Loc Cert.KernelIdeal.nD Cert.KernelIdeal.τ Cert.KernelIdeal.sig) → Buf (Elt Ideal) ℓ)
    (c : Dev Cert.KernelIdeal.nD) :
    Cert.ReferenceIdeal.ReadP.val_main_v13 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.KernelValue.result m c := by
  funext i
  obtain ⟨b, s, n, rfl⟩ : ∃ (b : Fin 4) (s : Fin 2048) (n : Fin 4096), i = ix3 b s n :=
    ⟨⟨(i 0).val, (i 0).isLt⟩, ⟨(i 1).val, (i 1).isLt⟩, ⟨(i 2).val, (i 2).isLt⟩, eq_ix3 i⟩
  rw [Cert.ReferenceIdeal.RefValue.result_apply]
  rfl

theorem frame_kernel : Cert.frame_Kernel (hKernel := Cert.Kernel.Gen.facts) (hPre_finite_inputs := Cert.Pre_finite_inputs.Gen.facts) :=
  fun m ρ _ => Cert.Kernel.Gen.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunH.run (F := Ideal) m ρ)

/-- The ideal pass's two rewrites, each the identity at the ideal instance and the rounding through bf16 at the
    word-level one. -/
theorem preserves : Cert.preserves_Kernel_KernelIdeal :=
  ⟨IdealRules.truncf_extf.statement Cert.KernelIdeal.S128x4096 .f32 .bf16,
   IdealRules.truncf_extf.statement Cert.KernelIdeal.S1024x1024 .f32 .bf16⟩

/-- From memories that agree on the arguments both programs run and end with the whole product of the arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.KernelValue.result m c, Cert.KernelIdeal.KernelValue.run m ρ hpre, ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2.1, (hagree c).2.2]
  exact reference_eq_result m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
